-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v82)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v82) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v108) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S128x8 : Shape := ⟨2, ![128, 8]⟩
abbrev S8 : Shape := ⟨1, ![8]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S128x8 : S_.BroadcastsInDim S128x8 (![] : Fin 0 → Fin S128x8.rank)
  reducesTo_S128x8_S_d0_1 : S128x8.ReducesTo [0, 1] S_
  bcast_S_S8 : S_.BroadcastsInDim S8 (![] : Fin 0 → Fin S8.rank)
  reducesTo_S8_S_d0 : S8.ReducesTo [0] S_

variable [Facts]

def fn_part1 {F : FTy → Type} [FloatOps F] (main_arg5 : FVec F S64 .f32) (main_arg6 : FVec F S128x8 .f32) (main_arg7 : FVec F S8 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S128x8 .f32 := Host.absf main_arg6
  let main_cst_8 : FVec F S_ .f32 := constant S_ .f32 0x7F800000#32
  let main_v25 : FVec F S128x8 .f32 := broadcastInDim S128x8 ![] bcast_S_S128x8 main_cst_8
  let main_v26 : IVec S128x8 1 := cmpf .olt main_v24 main_v25
  let main_c_9 : IVec S_ 1 := constantI S_ 1 1#1
  let main_v27 : IVec S_ 1 := (fun x v => Host.reduce IntOp.andi x v reducesTo_S128x8_S_d0_1 h_S_) main_v26 main_c_9
  let main_v28 : IVec S_ 1 := andi main_v23 main_v27
  let main_v29 : FVec F S8 .f32 := Host.absf main_arg7
  let main_cst_10 : FVec F S_ .f32 := constant S_ .f32 0x7F800000#32
  let main_v30 : FVec F S8 .f32 := broadcastInDim S8 ![] bcast_S_S8 main_cst_10
  let main_v31 : IVec S8 1 := cmpf .olt main_v29 main_v30
  let main_c_11 : IVec S_ 1 := constantI S_ 1 1#1
  let main_v32 : IVec S_ 1 := (fun x v => Host.reduce IntOp.andi x v reducesTo_S8_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x64 .f32) (main_arg3 : FVec F S64 .f32) (main_arg4 : FVec F S64x64 .f32) (main_arg5 : FVec F S64 .f32) (main_arg6 : FVec F S128x8 .f32) (main_arg7 : FVec F S8 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S128x8 : Shape := ⟨2, ![128, 8]⟩
abbrev S8 : Shape := ⟨1, ![8]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S10000x128 : Shape := ⟨2, ![10000, 128]⟩
abbrev S10000x64 : Shape := ⟨2, ![10000, 64]⟩
abbrev S1700000x64 : Shape := ⟨2, ![1700000, 64]⟩
abbrev S1x64 : Shape := ⟨2, ![1, 64]⟩
abbrev S1600000x1 : Shape := ⟨2, ![1600000, 1]⟩
abbrev S1600000x64 : Shape := ⟨2, ![1600000, 64]⟩
abbrev S64x8 : Shape := ⟨2, ![64, 8]⟩
abbrev S1x8 : Shape := ⟨2, ![1, 8]⟩
abbrev S1600000x8 : Shape := ⟨2, ![1600000, 8]⟩
abbrev S16000x64 : Shape := ⟨2, ![16000, 64]⟩
abbrev S16000x8 : Shape := ⟨2, ![16000, 8]⟩

abbrev nBuf : Space → Nat
  | .hbm => 112
  | .vmem => 19
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S128x8, .f32⟩
  | .hbm, ⟨7, _⟩ => ⟨S8, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S100000, .i32⟩
  | .hbm, ⟨13, _⟩ => ⟨S1700000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000, .f32⟩
  | .hbm, ⟨25, _⟩ => ⟨S_, .i32⟩
  | .hbm, ⟨26, _⟩ => ⟨S1700000, .i32⟩
  | .hbm, ⟨27, _⟩ => ⟨S1700000, .i1⟩
  | .hbm, ⟨28, _⟩ => ⟨S_, .i32⟩
  | .hbm, ⟨29, _⟩ => ⟨S1700000, .i32⟩
  | .hbm, ⟨30, _⟩ => ⟨S1700000, .i32⟩
  | .hbm, ⟨31, _⟩ => ⟨S1700000, .i32⟩
  | .hbm, ⟨32, _⟩ => ⟨S1700000x1, .i32⟩
  | .hbm, ⟨33, _⟩ => ⟨S1700000, .f32⟩
  | .hbm, ⟨34, _⟩ => ⟨S_, .i32⟩
  | .hbm, ⟨35, _⟩ => ⟨S1700000, .i32⟩
  | .hbm, ⟨36, _⟩ => ⟨S1700000, .i1⟩
  | .hbm, ⟨37, _⟩ => ⟨S_, .i32⟩
  | .hbm, ⟨38, _⟩ => ⟨S1700000, .i32⟩
  | .hbm, ⟨39, _⟩ => ⟨S1700000, .i32⟩
  | .hbm, ⟨40, _⟩ => ⟨S1700000, .i32⟩
  | .hbm, ⟨41, _⟩ => ⟨S1700000x1, .i32⟩
  | .hbm, ⟨42, _⟩ => ⟨S1700000, .f32⟩
  | .hbm, ⟨43, _⟩ => ⟨S1700000, .f32⟩
  | .hbm, ⟨44, _⟩ => ⟨S100000x64, .f32⟩
  | .hbm, ⟨45, _⟩ => ⟨S1700000x1, .f32⟩
  | .hbm, ⟨46, _⟩ => ⟨S_, .i32⟩
  | .hbm, ⟨47, _⟩ => ⟨S1700000, .i32⟩
  | .hbm, ⟨48, _⟩ => ⟨S1700000, .i1⟩
  | .hbm, ⟨49, _⟩ => ⟨S_, .i32⟩
  | .hbm, ⟨50, _⟩ => ⟨S1700000, .i32⟩
  | .hbm, ⟨51, _⟩ => ⟨S1700000, .i32⟩
  | .hbm, ⟨52, _⟩ => ⟨S1700000, .i32⟩
  | .hbm, ⟨53, _⟩ => ⟨S1700000x1, .i32⟩
  | .hbm, ⟨54, _⟩ => ⟨S1700000x64, .f32⟩
  | .hbm, ⟨55, _⟩ => ⟨S1700000x64, .f32⟩
  | .hbm, ⟨56, _⟩ => ⟨S1700000x64, .f32⟩
  | .hbm, ⟨57, _⟩ => ⟨S_, .f32⟩
  | .hbm, ⟨58, _⟩ => ⟨S100000x64, .f32⟩
  | .hbm, ⟨59, _⟩ => ⟨S1700000x1, .i32⟩
  | .hbm, ⟨60, _⟩ => ⟨S100000x64, .f32⟩
  | .hbm, ⟨61, _⟩ => ⟨S1x64, .f32⟩
  | .hbm, ⟨62, _⟩ => ⟨S100000x64, .f32⟩
  | .hbm, ⟨63, _⟩ => ⟨S100000x64, .f32⟩
  | .hbm, ⟨64, _⟩ => ⟨S_, .f32⟩
  | .hbm, ⟨65, _⟩ => ⟨S100000x64, .f32⟩
  | .hbm, ⟨66, _⟩ => ⟨S100000x64, .f32⟩
  | .hbm, ⟨67, _⟩ => ⟨S100000x64, .f32⟩
  | .hbm, ⟨68, _⟩ => ⟨S1700000x1, .f32⟩
  | .hbm, ⟨69, _⟩ => ⟨S_, .i32⟩
  | .hbm, ⟨70, _⟩ => ⟨S1700000, .i32⟩
  | .hbm, ⟨71, _⟩ => ⟨S1700000, .i1⟩
  | .hbm, ⟨72, _⟩ => ⟨S_, .i32⟩
  | .hbm, ⟨73, _⟩ => ⟨S1700000, .i32⟩
  | .hbm, ⟨74, _⟩ => ⟨S1700000, .i32⟩
  | .hbm, ⟨75, _⟩ => ⟨S1700000, .i32⟩
  | .hbm, ⟨76, _⟩ => ⟨S1700000x1, .i32⟩
  | .hbm, ⟨77, _⟩ => ⟨S1700000x64, .f32⟩
  | .hbm, ⟨78, _⟩ => ⟨S1700000x64, .f32⟩
  | .hbm, ⟨79, _⟩ => ⟨S1700000x64, .f32⟩
  | .hbm, ⟨80, _⟩ => ⟨S_, .f32⟩
  | .hbm, ⟨81, _⟩ => ⟨S100000x64, .f32⟩
  | .hbm, ⟨82, _⟩ => ⟨S1700000x1, .i32⟩
  | .hbm, ⟨83, _⟩ => ⟨S100000x64, .f32⟩
  | .hbm, ⟨84, _⟩ => ⟨S1x64, .f32⟩
  | .hbm, ⟨85, _⟩ => ⟨S100000x64, .f32⟩
  | .hbm, ⟨86, _⟩ => ⟨S100000x64, .f32⟩
  | .hbm, ⟨87, _⟩ => ⟨S_, .f32⟩
  | .hbm, ⟨88, _⟩ => ⟨S100000x64, .f32⟩
  | .hbm, ⟨89, _⟩ => ⟨S100000x64, .f32⟩
  | .hbm, ⟨90, _⟩ => ⟨S_, .i32⟩
  | .hbm, ⟨91, _⟩ => ⟨S1600000, .i32⟩
  | .hbm, ⟨92, _⟩ => ⟨S1600000, .i1⟩
  | .hbm, ⟨93, _⟩ => ⟨S_, .i32⟩
  | .hbm, ⟨94, _⟩ => ⟨S1600000, .i32⟩
  | .hbm, ⟨95, _⟩ => ⟨S1600000, .i32⟩
  | .hbm, ⟨96, _⟩ => ⟨S1600000, .i32⟩
  | .hbm, ⟨97, _⟩ => ⟨S1600000x1, .i32⟩
  | .hbm, ⟨98, _⟩ => ⟨S1600000x64, .f32⟩
  | .hbm, ⟨99, _⟩ => ⟨S_, .i32⟩
  | .hbm, ⟨100, _⟩ => ⟨S1600000, .i32⟩
  | .hbm, ⟨101, _⟩ => ⟨S1600000, .i1⟩
  | .hbm, ⟨102, _⟩ => ⟨S_, .i32⟩
  | .hbm, ⟨103, _⟩ => ⟨S1600000, .i32⟩
  | .hbm, ⟨104, _⟩ => ⟨S1600000, .i32⟩
  | .hbm, ⟨105, _⟩ => ⟨S1600000, .i32⟩
  | .hbm, ⟨106, _⟩ => ⟨S1600000x1, .i32⟩
  | .hbm, ⟨107, _⟩ => ⟨S1600000x64, .f32⟩
  | .hbm, ⟨108, _⟩ => ⟨S64x8, .f32⟩
  | .hbm, ⟨109, _⟩ => ⟨S64x8, .f32⟩
  | .hbm, ⟨110, _⟩ => ⟨S1x8, .f32⟩
  | .hbm, ⟨111, _⟩ => ⟨S1600000x8, .f32⟩
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S64x64, .f32⟩
  | .local _ .vmem, ⟨8, _⟩ => ⟨S10000x64, .f32⟩
  | .local _ .vmem, ⟨9, _⟩ => ⟨S10000x64, .f32⟩
  | .local _ .vmem, ⟨10, _⟩ => ⟨S16000x64, .f32⟩
  | .local _ .vmem, ⟨11, _⟩ => ⟨S16000x64, .f32⟩
  | .local _ .vmem, ⟨12, _⟩ => ⟨S16000x64, .f32⟩
  | .local _ .vmem, ⟨13, _⟩ => ⟨S16000x64, .f32⟩
  | .local _ .vmem, ⟨14, _⟩ => ⟨S64x8, .f32⟩
  | .local _ .vmem, ⟨15, _⟩ => ⟨S64x8, .f32⟩
  | .local _ .vmem, ⟨16, _⟩ => ⟨S1x8, .f32⟩
  | .local _ .vmem, ⟨17, _⟩ => ⟨S16000x8, .f32⟩
  | .local _ .vmem, ⟨18, _⟩ => ⟨S16000x8, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c : Ref sig .tc := ⟨.hbm, 25, rfl⟩
abbrev main_v14 : Ref sig .tc := ⟨.hbm, 26, rfl⟩
abbrev main_v15 : Ref sig .tc := ⟨.hbm, 27, rfl⟩
abbrev main_c_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c_3 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_c_5 : Ref sig .tc := ⟨.hbm, 46, rfl⟩
abbrev main_v31 : Ref sig .tc := ⟨.hbm, 47, rfl⟩
abbrev main_v32 : Ref sig .tc := ⟨.hbm, 48, rfl⟩
abbrev main_c_6 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_7 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_call0_cst : Ref sig .tc := ⟨.hbm, 64, rfl⟩
abbrev main_call0_v0 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_c_8 : Ref sig .tc := ⟨.hbm, 69, rfl⟩
abbrev main_v49 : Ref sig .tc := ⟨.hbm, 70, rfl⟩
abbrev main_v50 : Ref sig .tc := ⟨.hbm, 71, rfl⟩
abbrev main_c_9 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_10 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_call1_cst : Ref sig .tc := ⟨.hbm, 87, rfl⟩
abbrev main_call1_v0 : Ref sig .tc := ⟨.hbm, 88, rfl⟩
abbrev main_v64 : Ref sig .tc := ⟨.hbm, 89, rfl⟩
abbrev main_c_11 : Ref sig .tc := ⟨.hbm, 90, rfl⟩
abbrev main_v65 : Ref sig .tc := ⟨.hbm, 91, rfl⟩
abbrev main_v66 : Ref sig .tc := ⟨.hbm, 92, rfl⟩
abbrev main_c_12 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_c_13 : Ref sig .tc := ⟨.hbm, 99, rfl⟩
abbrev main_v72 : Ref sig .tc := ⟨.hbm, 100, rfl⟩
abbrev main_v73 : Ref sig .tc := ⟨.hbm, 101, rfl⟩
abbrev main_c_14 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg5_0 : Ref sig .tc := ⟨.vmem, 17, rfl⟩
abbrev cc2_stg5_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem3_0 : DmaSem sig := 15
abbrev cc2_sem4_0 : DmaSem sig := 16
abbrev cc2_sem5_0 : DmaSem sig := 17
abbrev cc2_sem5_1 : DmaSem sig := 18

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S16000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S16000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x8 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x8 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x8 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S16000x8 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  shapeCasts_S10000x64_S10000x64 : S10000x64.ShapeCasts S10000x64
  inb_S64x64_S64x64_0_0 : ∀ a, (![0, 0] : Fin 2 → Nat) a + S64x64.size a ≤ S64x64.size a
  h_S64x64 : 0 < S64x64.numel
  bcast_S_S1600000 : S_.BroadcastsInDim S1600000 (![] : Fin 0 → Fin S1600000.rank)
  bcast_S1600000_S1600000x1_0 : S1600000.BroadcastsInDim S1600000x1 (![0] : Fin 1 → Fin S1600000x1.rank)
  slices_S128x8_S64x8_0_0 : S128x8.Slices ![0, 0] S64x8
  slices_S128x8_S64x8_64_0 : S128x8.Slices ![64, 0] S64x8
  shapeCasts_S8_S1x8 : S8.ShapeCasts S1x8
  inb_S16000x64_S16000x64_0_0 : ∀ a, (![0, 0] : Fin 2 → Nat) a + S16000x64.size a ≤ S16000x64.size a
  h_S16000x64 : 0 < S16000x64.numel
  shapeCasts_S16000x64_S16000x64 : S16000x64.ShapeCasts S16000x64
  inb_S64x8_S64x8_0_0 : ∀ a, (![0, 0] : Fin 2 → Nat) a + S64x8.size a ≤ S64x8.size a
  h_S64x8 : 0 < S64x8.numel
  shapeCasts_S64x8_S64x8 : S64x8.ShapeCasts S64x8
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S16000x8 : S1x8.Broadcasts S16000x8
  inb_S16000x8_S16000x8_0_0 : ∀ a, (![0, 0] : Fin 2 → Nat) a + S16000x8.size a ≤ S16000x8.size a
  h_S16000x8 : 0 < S16000x8.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x128_S128x64_S10000x64_1_0_0_1_n_n_wf : DotDims.WF S10000x128 S128x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S10000x64_S64x64_S10000x64_1_0_0_1_n_n_wf : DotDims.WF S10000x64 S64x64 S10000x64 [1] [0] [0] [1] [] []
  gather_S100000x64_S1600000x1_S1600000x64_1_0_n_n_0_1_164_wf : GatherDims.WF S100000x64 S1600000x1 S1600000x64 [1] [0] [] [0] [] 1 ![1, 64]
  dot_S16000x64_S64x8_S16000x8_1_0_0_1_n_n_wf : DotDims.WF S16000x64 S64x8 S16000x8 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S16000x64.size a ≤ S1600000x64.size a
  hwx2_0 : ∀ i : grid2.Coords, EltTy.bits .f32 = 32 ∨ (Rect.block (s := S1600000x64) S16000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S16000x64.size a ≤ S1600000x64.size a
  hwx2_1 : ∀ i : grid2.Coords, EltTy.bits .f32 = 32 ∨ (Rect.block (s := S1600000x64) S16000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x8.size a ≤ S64x8.size a
  hwx2_2 : ∀ i : grid2.Coords, EltTy.bits .f32 = 32 ∨ (Rect.block (s := S64x8) S64x8.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x8.size a ≤ S64x8.size a
  hwx2_3 : ∀ i : grid2.Coords, EltTy.bits .f32 = 32 ∨ (Rect.block (s := S64x8) S64x8.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x8.size a ≤ S1x8.size a
  hwx2_4 : ∀ i : grid2.Coords, EltTy.bits .f32 = 32 ∨ (Rect.block (s := S1x8) S1x8.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S16000x8.size a ≤ S1600000x8.size a
  hwx2_5 : ∀ i : grid2.Coords, EltTy.bits .f32 = 32 ∨ (Rect.block (s := S1600000x8) S16000x8.size (cc2_transform_5 i) (hinb2_5 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def dot_S16000x64_S64x8_S16000x8_1_0_0_1_n_n : DotDims S16000x64 S64x8 S16000x8 where
  lhsContracting := [1]
  rhsContracting := [0]
  lhsNonContracting := [0]
  rhsNonContracting := [1]
  lhsBatch := []
  rhsBatch := []
  wf := dot_S16000x64_S64x8_S16000x8_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v46) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v71) S16000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v78) S16000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v79) S64x8.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v80) S64x8.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v81) S1x8.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v82) S16000x8.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S128x8 : Shape := ⟨2, ![128, 8]⟩
abbrev S8 : Shape := ⟨1, ![8]⟩
abbrev S1x1600000 : Shape := ⟨2, ![1, 1600000]⟩
abbrev S1600000 : Shape := ⟨1, ![1600000]⟩
abbrev S100000x64 : Shape := ⟨2, ![100000, 64]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩
abbrev S1600000x1 : Shape := ⟨2, ![1600000, 1]⟩
abbrev S1600000x64 : Shape := ⟨2, ![1600000, 64]⟩
abbrev S1600000x128 : Shape := ⟨2, ![1600000, 128]⟩
abbrev S1600000x8 : Shape := ⟨2, ![1600000, 8]⟩
abbrev S1x8 : Shape := ⟨2, ![1, 8]⟩

abbrev nBuf : Space → Nat
  | .hbm => 145
  | .vmem => 0
  | .smem => 0
  | _ => 0

abbrev hbmTy0_0 (i : Nat) : BufTy := match i % 128 with
  | 0 => ⟨S100000x128, .f32⟩
  | 1 => ⟨S2x1600000, .i32⟩
  | 2 => ⟨S128x64, .f32⟩
  | 3 => ⟨S64, .f32⟩
  | 4 => ⟨S64x64, .f32⟩
  | 5 => ⟨S64, .f32⟩
  | 6 => ⟨S128x8, .f32⟩
  | 7 => ⟨S8, .f32⟩
  | 8 => ⟨S1x1600000, .i32⟩
  | 9 => ⟨S1600000, .i32⟩
  | 10 => ⟨S1x1600000, .i32⟩
  | 11 => ⟨S1600000, .i32⟩
  | 12 => ⟨S100000x64, .f32⟩
  | 13 => ⟨S100000, .i32⟩
  | 14 => ⟨S1700000, .i32⟩
  | 15 => ⟨S1700000, .i32⟩
  | 16 => ⟨S_, .f32⟩
  | 17 => ⟨S1700000, .f32⟩
  | 18 => ⟨S_, .f32⟩
  | 19 => ⟨S100000, .f32⟩
  | 20 => ⟨S1700000x1, .i32⟩
  | 21 => ⟨S100000, .f32⟩
  | 22 => ⟨S_, .f32⟩
  | 23 => ⟨S100000, .f32⟩
  | 24 => ⟨S100000, .f32⟩
  | 25 => ⟨S100000, .f32⟩
  | 26 => ⟨S_, .i32⟩
  | 27 => ⟨S1700000, .i32⟩
  | 28 => ⟨S1700000, .i1⟩
  | 29 => ⟨S_, .i32⟩
  | 30 => ⟨S1700000, .i32⟩
  | 31 => ⟨S1700000, .i32⟩
  | 32 => ⟨S1700000, .i32⟩
  | 33 => ⟨S1700000x1, .i32⟩
  | 34 => ⟨S1700000, .f32⟩
  | 35 => ⟨S_, .i32⟩
  | 36 => ⟨S1700000, .i32⟩
  | 37 => ⟨S1700000, .i1⟩
  | 38 => ⟨S_, .i32⟩
  | 39 => ⟨S1700000, .i32⟩
  | 40 => ⟨S1700000, .i32⟩
  | 41 => ⟨S1700000, .i32⟩
  | 42 => ⟨S1700000x1, .i32⟩
  | 43 => ⟨S1700000, .f32⟩
  | 44 => ⟨S1700000, .f32⟩
  | 45 => ⟨S1700000x1, .f32⟩
  | 46 => ⟨S_, .i32⟩
  | 47 => ⟨S1700000, .i32⟩
  | 48 => ⟨S1700000, .i1⟩
  | 49 => ⟨S_, .i32⟩
  | 50 => ⟨S1700000, .i32⟩
  | 51 => ⟨S1700000, .i32⟩
  | 52 => ⟨S1700000, .i32⟩
  | 53 => ⟨S1700000x1, .i32⟩
  | 54 => ⟨S1700000x64, .f32⟩
  | 55 => ⟨S1700000x64, .f32⟩
  | 56 => ⟨S1700000x64, .f32⟩
  | 57 => ⟨S_, .f32⟩
  | 58 => ⟨S100000x64, .f32⟩
  | 59 => ⟨S1700000x1, .i32⟩
  | 60 => ⟨S100000x64, .f32⟩
  | 61 => ⟨S1x64, .f32⟩
  | 62 => ⟨S100000x64, .f32⟩
  | 63 => ⟨S100000x64, .f32⟩
  | 64 => ⟨S_, .f32⟩
  | 65 => ⟨S100000x64, .f32⟩
  | 66 => ⟨S100000x64, .f32⟩
  | 67 => ⟨S100000x64, .f32⟩
  | 68 => ⟨S100000, .i32⟩
  | 69 => ⟨S1700000, .i32⟩
  | 70 => ⟨S1700000, .i32⟩
  | 71 => ⟨S_, .f32⟩
  | 72 => ⟨S1700000, .f32⟩
  | 73 => ⟨S_, .f32⟩
  | 74 => ⟨S100000, .f32⟩
  | 75 => ⟨S1700000x1, .i32⟩
  | 76 => ⟨S100000, .f32⟩
  | 77 => ⟨S_, .f32⟩
  | 78 => ⟨S100000, .f32⟩
  | 79 => ⟨S100000, .f32⟩
  | 80 => ⟨S100000, .f32⟩
  | 81 => ⟨S_, .i32⟩
  | 82 => ⟨S1700000, .i32⟩
  | 83 => ⟨S1700000, .i1⟩
  | 84 => ⟨S_, .i32⟩
  | 85 => ⟨S1700000, .i32⟩
  | 86 => ⟨S1700000, .i32⟩
  | 87 => ⟨S1700000, .i32⟩
  | 88 => ⟨S1700000x1, .i32⟩
  | 89 => ⟨S1700000, .f32⟩
  | 90 => ⟨S_, .i32⟩
  | 91 => ⟨S1700000, .i32⟩
  | 92 => ⟨S1700000, .i1⟩
  | 93 => ⟨S_, .i32⟩
  | 94 => ⟨S1700000, .i32⟩
  | 95 => ⟨S1700000, .i32⟩
  | 96 => ⟨S1700000, .i32⟩
  | 97 => ⟨S1700000x1, .i32⟩
  | 98 => ⟨S1700000, .f32⟩
  | 99 => ⟨S1700000, .f32⟩
  | 100 => ⟨S1700000x1, .f32⟩
  | 101 => ⟨S_, .i32⟩
  | 102 => ⟨S1700000, .i32⟩
  | 103 => ⟨S1700000, .i1⟩
  | 104 => ⟨S_, .i32⟩
  | 105 => ⟨S1700000, .i32⟩
  | 106 => ⟨S1700000, .i32⟩
  | 107 => ⟨S1700000, .i32⟩
  | 108 => ⟨S1700000x1, .i32⟩
  | 109 => ⟨S1700000x64, .f32⟩
  | 110 => ⟨S1700000x64, .f32⟩
  | 111 => ⟨S1700000x64, .f32⟩
  | 112 => ⟨S_, .f32⟩
  | 113 => ⟨S100000x64, .f32⟩
  | 114 => ⟨S1700000x1, .i32⟩
  | 115 => ⟨S100000x64, .f32⟩
  | 116 => ⟨S1x64, .f32⟩
  | 117 => ⟨S100000x64, .f32⟩
  | 118 => ⟨S100000x64, .f32⟩
  | 119 => ⟨S_, .f32⟩
  | 120 => ⟨S100000x64, .f32⟩
  | 121 => ⟨S100000x64, .f32⟩
  | 122 => ⟨S_, .i32⟩
  | 123 => ⟨S1600000, .i32⟩
  | 124 => ⟨S1600000, .i1⟩
  | 125 => ⟨S_, .i32⟩
  | 126 => ⟨S1600000, .i32⟩
  | 127 => ⟨S1600000, .i32⟩
  | _ => ⟨S100000x128, .f32⟩

abbrev hbmTy0_1 (i : Nat) : BufTy := match i % 128 with
  | 0 => ⟨S1600000, .i32⟩
  | 1 => ⟨S1600000x1, .i32⟩
  | 2 => ⟨S1600000x64, .f32⟩
  | 3 => ⟨S_, .i32⟩
  | 4 => ⟨S1600000, .i32⟩
  | 5 => ⟨S1600000, .i1⟩
  | 6 => ⟨S_, .i32⟩
  | 7 => ⟨S1600000, .i32⟩
  | 8 => ⟨S1600000, .i32⟩
  | 9 => ⟨S1600000, .i32⟩
  | 10 => ⟨S1600000x1, .i32⟩
  | 11 => ⟨S1600000x64, .f32⟩
  | 12 => ⟨S1600000x128, .f32⟩
  | 13 => ⟨S1600000x8, .f32⟩
  | 14 => ⟨S1x8, .f32⟩
  | 15 => ⟨S1600000x8, .f32⟩
  | 16 => ⟨S1600000x8, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_c : Ref sig .tc := ⟨.hbm, 26, rfl⟩
abbrev main_v15 : Ref sig .tc := ⟨.hbm, 27, rfl⟩
abbrev main_v16 : Ref sig .tc := ⟨.hbm, 28, rfl⟩
abbrev main_c_2 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_c_3 : Ref sig .tc := ⟨.hbm, 35, rfl⟩
abbrev main_v22 : Ref sig .tc := ⟨.hbm, 36, rfl⟩
abbrev main_v23 : Ref sig .tc := ⟨.hbm, 37, rfl⟩
abbrev main_c_4 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_c_5 : Ref sig .tc := ⟨.hbm, 46, rfl⟩
abbrev main_v31 : Ref sig .tc := ⟨.hbm, 47, rfl⟩
abbrev main_v32 : Ref sig .tc := ⟨.hbm, 48, rfl⟩
abbrev main_c_6 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_7 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_call0_cst : Ref sig .tc := ⟨.hbm, 64, rfl⟩
abbrev main_call0_v0 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_8 : Ref sig .tc := ⟨.hbm, 71, rfl⟩
abbrev main_v51 : Ref sig .tc := ⟨.hbm, 72, rfl⟩
abbrev main_cst_9 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_10 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_c_11 : Ref sig .tc := ⟨.hbm, 81, rfl⟩
abbrev main_v58 : Ref sig .tc := ⟨.hbm, 82, rfl⟩
abbrev main_v59 : Ref sig .tc := ⟨.hbm, 83, rfl⟩
abbrev main_c_12 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_c_13 : Ref sig .tc := ⟨.hbm, 90, rfl⟩
abbrev main_v65 : Ref sig .tc := ⟨.hbm, 91, rfl⟩
abbrev main_v66 : Ref sig .tc := ⟨.hbm, 92, rfl⟩
abbrev main_c_14 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_c_15 : Ref sig .tc := ⟨.hbm, 101, rfl⟩
abbrev main_v74 : Ref sig .tc := ⟨.hbm, 102, rfl⟩
abbrev main_v75 : Ref sig .tc := ⟨.hbm, 103, rfl⟩
abbrev main_c_16 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_cst_17 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_call1_cst : Ref sig .tc := ⟨.hbm, 119, rfl⟩
abbrev main_call1_v0 : Ref sig .tc := ⟨.hbm, 120, rfl⟩
abbrev main_v89 : Ref sig .tc := ⟨.hbm, 121, rfl⟩
abbrev main_c_18 : Ref sig .tc := ⟨.hbm, 122, rfl⟩
abbrev main_v90 : Ref sig .tc := ⟨.hbm, 123, rfl⟩
abbrev main_v91 : Ref sig .tc := ⟨.hbm, 124, rfl⟩
abbrev main_c_19 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_c_20 : Ref sig .tc := ⟨.hbm, 131, rfl⟩
abbrev main_v97 : Ref sig .tc := ⟨.hbm, 132, rfl⟩
abbrev main_v98 : Ref sig .tc := ⟨.hbm, 133, rfl⟩
abbrev main_c_21 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  concatenates_S1600000x64_S1600000x64_S1600000x128_d1 : Shape.Concatenates [S1600000x64, S1600000x64] S1600000x128 1
  bcast_S8_S1x8_1 : S8.BroadcastsInDim S1x8 (![1] : Fin 1 → Fin S1x8.rank)
  bcast_S1x8_S1600000x8_0_1 : S1x8.BroadcastsInDim S1600000x8 (![0, 1] : Fin 2 → Fin S1600000x8.rank)
  dot_S100000x128_S128x64_S100000x64_1_0_0_1_n_n_wf : DotDims.WF S100000x128 S128x64 S100000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x64_S100000x64_1_0_0_1_n_n_wf : DotDims.WF S100000x64 S64x64 S100000x64 [1] [0] [0] [1] [] []
  gather_S100000x64_S1600000x1_S1600000x64_1_0_n_n_0_1_164_wf : GatherDims.WF S100000x64 S1600000x1 S1600000x64 [1] [0] [] [0] [] 1 ![1, 64]
  dot_S1600000x128_S128x8_S1600000x8_1_0_0_1_n_n_wf : DotDims.WF S1600000x128 S128x8 S1600000x8 [1] [0] [0] [1] [] []

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def dot_S1600000x128_S128x8_S1600000x8_1_0_0_1_n_n : DotDims S1600000x128 S128x8 S1600000x8 where
  lhsContracting := [1]
  rhsContracting := [0]
  lhsNonContracting := [0]
  rhsNonContracting := [1]
  lhsBatch := []
  rhsBatch := []
  wf := dot_S1600000x128_S128x8_S1600000x8_1_0_0_1_n_n_wf

class Facts : Prop extends Facts₀ where

variable [Facts]
-- ==== Proof.StageA.lean ====
import proofs.«178281_j32615981646453_1_alg».proof.Proof.Gen.KernelIdeal.Frame
import proofs.«178281_j32615981646453_1_alg».proof.Proof.Gen.ReferenceIdeal.Read

set_option maxRecDepth 16384

noncomputable section

open scoped BigOperators

/-! # The graph's bookkeeping before the first projection

Before the first region the kernel's host program builds, from the edge list alone, what both layers use: the two
endpoint lists, each with one self loop per node appended; the in-degree of every node by a scatter-add of ones; its
inverse square root; and the weight of every edge, the product of the two endpoints' inverse roots. The reference
program builds the same arrays by the same operations (it builds the degrees and weights once per layer; both
copies are the same term). Here each of the kernel's arrays at the first region's entry is identified with the
reference's stage that computes it, as a function of the edge list as launched. -/

namespace Cert.Bridge.StageA

open Cert.KernelIdeal Cert.KernelIdeal.Gen
open Cert.ReferenceIdeal.Read
open Idealize.ShloMosaic Idealize.ShloMosaic.TcCoe Idealize.ShloMosaic.StableHlo

variable (m : (ℓ : Loc nD τ sig) → Buf (Elt Ideal) ℓ) (ρ : Dev nD → PrngReg) (c : Dev nD)

/-- The source endpoints. -/
theorem src : W1 m ρ c (Proc.devRef .tc main_v1) = val_main_v1 (F := Ideal) (m ((c : Thread nD τ).loc main_arg1)) := by
  dsimp only [W1, hostOps0]
  after_results_simp
  try after_results
  rfl

/-- The target endpoints. -/
theorem dst : W1 m ρ c (Proc.devRef .tc main_v3) = val_main_v3 (F := Ideal) (m ((c : Thread nD τ).loc main_arg1)) := by
  dsimp only [W1, hostOps0]
  after_results_simp
  try after_results
  rfl

/-- The source endpoints with the self loops appended (the reference's first copy). -/
theorem srcLoops : W1 m ρ c (Proc.devRef .tc main_v5) = val_main_v6 (F := Ideal) (m ((c : Thread nD τ).loc main_arg1)) := by
  dsimp only [W1, hostOps0]
  after_results_simp
  try after_results
  rfl

/-- The same against the reference's second copy. -/
theorem srcLoops' : W1 m ρ c (Proc.devRef .tc main_v5) = val_main_v49 (F := Ideal) (m ((c : Thread nD τ).loc main_arg1)) := by
  dsimp only [W1, hostOps0]
  after_results_simp
  try after_results
  rfl

/-- The target endpoints with the self loops appended (the reference's first copy). -/
theorem dstLoops : W1 m ρ c (Proc.devRef .tc main_v6) = val_main_v7 (F := Ideal) (m ((c : Thread nD τ).loc main_arg1)) := by
  dsimp only [W1, hostOps0]
  after_results_simp
  try after_results
  rfl

/-- The same against the reference's second copy. -/
theorem dstLoops' : W1 m ρ c (Proc.devRef .tc main_v6) = val_main_v50 (F := Ideal) (m ((c : Thread nD τ).loc main_arg1)) := by
  dsimp only [W1, hostOps0]
  after_results_simp
  try after_results
  rfl

set_option maxHeartbeats 8000000 in
/-- The edge weights (the reference's first copy). -/
theorem weights : W1 m ρ c (Proc.devRef .tc main_v28) = val_main_v29 (F := Ideal) (m ((c : Thread nD τ).loc main_arg1)) := by
  dsimp only [W1, hostOps0]
  after_results_simp
  try after_results
  rfl

set_option maxHeartbeats 8000000 in
/-- The edge weights against the reference's second copy. -/
theorem weights' : W1 m ρ c (Proc.devRef .tc main_v28) = val_main_v72 (F := Ideal) (m ((c : Thread nD τ).loc main_arg1)) := by
  dsimp only [W1, hostOps0]
  after_results_simp
  try after_results
  rfl

end Cert.Bridge.StageA

end
-- ==== Proof.Carry.lean ====
import proofs.«178281_j32615981646453_1_alg».proof.Proof.Gen.KernelIdeal.Frame
import proofs.«178281_j32615981646453_1_alg».proof.Proof.Gen.ReferenceIdeal.Read
import proofs.«178281_j32615981646453_1_alg».proof.Proof.StageA
set_option maxRecDepth 16384

noncomputable section

open scoped BigOperators

/-! # What the host stretches and the regions leave alone

A stretch of host operations leaves every buffer none of its operations writes as it was, and a region changes only
its own output array. So the arrays built before the first region (the endpoint lists, the weights) and the
arguments are still, at every later boundary, what they were when first built. Each lemma here walks one buffer
back from a later boundary to an earlier one; the buffer is compared by name with each operation's result
buffer. -/

namespace Cert.Bridge.Carry

open Cert.KernelIdeal Cert.KernelIdeal.Gen
open Cert.ReferenceIdeal.Read
open Idealize.ShloMosaic Idealize.ShloMosaic.TcCoe Idealize.ShloMosaic.StableHlo

variable (m : (ℓ : Loc nD τ sig) → Buf (Elt Ideal) ℓ) (ρ : Dev nD → PrngReg) (c : Dev nD)

/-- A stretch of host operations does not touch a buffer that is none of its operations' result. -/
macro "not_written" : tactic => `(tactic| (
  refine StableHlo.after_of_forall_not_mem _ _ (List.forall_iff_forall_mem.mp ?_)
  simp only [hostOps0, hostOps1, hostOps1_1, hostOps2, hostOps2_1, hostOps2_2, List.flatten_cons, List.flatten_nil, List.append_nil,
    List.cons_append, List.nil_append, List.Forall, StableHlo.nullary_writes, StableHlo.unary_writes, StableHlo.binary_writes,
    StableHlo.ternary_writes, StableHlo.quaternary_writes, StableHlo.reshape_writes, StableHlo.binaryIndexed_writes, Finset.mem_singleton]
  repeat' apply And.intro
  all_goals exact StableHlo.devRef_ne_of_ne (by decide)))

/-! ## The arguments at the first region's entry -/

theorem arg0_at1 : W1 m ρ c (Proc.devRef .tc main_arg0) = (m ((c : Thread nD τ).loc main_arg0)) :=
  (show StableHlo.after hostOps0 (W0 m ρ c) (Proc.devRef .tc main_arg0) = W0 m ρ c (Proc.devRef .tc main_arg0) by not_written).trans rfl

theorem arg2_at1 : W1 m ρ c (Proc.devRef .tc main_arg2) = (m ((c : Thread nD τ).loc main_arg2)) :=
  (show StableHlo.after hostOps0 (W0 m ρ c) (Proc.devRef .tc main_arg2) = W0 m ρ c (Proc.devRef .tc main_arg2) by not_written).trans rfl

theorem arg3_at1 : W1 m ρ c (Proc.devRef .tc main_arg3) = (m ((c : Thread nD τ).loc main_arg3)) :=
  (show StableHlo.after hostOps0 (W0 m ρ c) (Proc.devRef .tc main_arg3) = W0 m ρ c (Proc.devRef .tc main_arg3) by not_written).trans rfl

theorem arg4_at1 : W1 m ρ c (Proc.devRef .tc main_arg4) = (m ((c : Thread nD τ).loc main_arg4)) :=
  (show StableHlo.after hostOps0 (W0 m ρ c) (Proc.devRef .tc main_arg4) = W0 m ρ c (Proc.devRef .tc main_arg4) by not_written).trans rfl

theorem arg5_at1 : W1 m ρ c (Proc.devRef .tc main_arg5) = (m ((c : Thread nD τ).loc main_arg5)) :=
  (show StableHlo.after hostOps0 (W0 m ρ c) (Proc.devRef .tc main_arg5) = W0 m ρ c (Proc.devRef .tc main_arg5) by not_written).trans rfl

theorem arg6_at1 : W1 m ρ c (Proc.devRef .tc main_arg6) = (m ((c : Thread nD τ).loc main_arg6)) :=
  (show StableHlo.after hostOps0 (W0 m ρ c) (Proc.devRef .tc main_arg6) = W0 m ρ c (Proc.devRef .tc main_arg6) by not_written).trans rfl

theorem arg7_at1 : W1 m ρ c (Proc.devRef .tc main_arg7) = (m ((c : Thread nD τ).loc main_arg7)) :=
  (show StableHlo.after hostOps0 (W0 m ρ c) (Proc.devRef .tc main_arg7) = W0 m ρ c (Proc.devRef .tc main_arg7) by not_written).trans rfl

/-! ## From the second region's entry back to the first region's exit -/

theorem v1_at4 : W4 m ρ c (Proc.devRef .tc main_v1) = W2 m ρ c (Proc.devRef .tc main_v1) :=
  (show StableHlo.after hostOps1_1 (W3 m ρ c) (Proc.devRef .tc main_v1) = W3 m ρ c (Proc.devRef .tc main_v1) by not_written).trans
    (show StableHlo.after hostOps1 (W2 m ρ c) (Proc.devRef .tc main_v1) = W2 m ρ c (Proc.devRef .tc main_v1) by not_written)

theorem v3_at4 : W4 m ρ c (Proc.devRef .tc main_v3) = W2 m ρ c (Proc.devRef .tc main_v3) :=
  (show StableHlo.after hostOps1_1 (W3 m ρ c) (Proc.devRef .tc main_v3) = W3 m ρ c (Proc.devRef .tc main_v3) by not_written).trans
    (show StableHlo.after hostOps1 (W2 m ρ c) (Proc.devRef .tc main_v3) = W2 m ρ c (Proc.devRef .tc main_v3) by not_written)

theorem v5_at4 : W4 m ρ c (Proc.devRef .tc main_v5) = W2 m ρ c (Proc.devRef .tc main_v5) :=
  (show StableHlo.after hostOps1_1 (W3 m ρ c) (Proc.devRef .tc main_v5) = W3 m ρ c (Proc.devRef .tc main_v5) by not_written).trans
    (show StableHlo.after hostOps1 (W2 m ρ c) (Proc.devRef .tc main_v5) = W2 m ρ c (Proc.devRef .tc main_v5) by not_written)

theorem v6_at4 : W4 m ρ c (Proc.devRef .tc main_v6) = W2 m ρ c (Proc.devRef .tc main_v6) :=
  (show StableHlo.after hostOps1_1 (W3 m ρ c) (Proc.devRef .tc main_v6) = W3 m ρ c (Proc.devRef .tc main_v6) by not_written).trans
    (show StableHlo.after hostOps1 (W2 m ρ c) (Proc.devRef .tc main_v6) = W2 m ρ c (Proc.devRef .tc main_v6) by not_written)

theorem v28_at4 : W4 m ρ c (Proc.devRef .tc main_v28) = W2 m ρ c (Proc.devRef .tc main_v28) :=
  (show StableHlo.after hostOps1_1 (W3 m ρ c) (Proc.devRef .tc main_v28) = W3 m ρ c (Proc.devRef .tc main_v28) by not_written).trans
    (show StableHlo.after hostOps1 (W2 m ρ c) (Proc.devRef .tc main_v28) = W2 m ρ c (Proc.devRef .tc main_v28) by not_written)

theorem arg4_at4 : W4 m ρ c (Proc.devRef .tc main_arg4) = W2 m ρ c (Proc.devRef .tc main_arg4) :=
  (show StableHlo.after hostOps1_1 (W3 m ρ c) (Proc.devRef .tc main_arg4) = W3 m ρ c (Proc.devRef .tc main_arg4) by not_written).trans
    (show StableHlo.after hostOps1 (W2 m ρ c) (Proc.devRef .tc main_arg4) = W2 m ρ c (Proc.devRef .tc main_arg4) by not_written)

theorem arg5_at4 : W4 m ρ c (Proc.devRef .tc main_arg5) = W2 m ρ c (Proc.devRef .tc main_arg5) :=
  (show StableHlo.after hostOps1_1 (W3 m ρ c) (Proc.devRef .tc main_arg5) = W3 m ρ c (Proc.devRef .tc main_arg5) by not_written).trans
    (show StableHlo.after hostOps1 (W2 m ρ c) (Proc.devRef .tc main_arg5) = W2 m ρ c (Proc.devRef .tc main_arg5) by not_written)

theorem arg6_at4 : W4 m ρ c (Proc.devRef .tc main_arg6) = W2 m ρ c (Proc.devRef .tc main_arg6) :=
  (show StableHlo.after hostOps1_1 (W3 m ρ c) (Proc.devRef .tc main_arg6) = W3 m ρ c (Proc.devRef .tc main_arg6) by not_written).trans
    (show StableHlo.after hostOps1 (W2 m ρ c) (Proc.devRef .tc main_arg6) = W2 m ρ c (Proc.devRef .tc main_arg6) by not_written)

theorem arg7_at4 : W4 m ρ c (Proc.devRef .tc main_arg7) = W2 m ρ c (Proc.devRef .tc main_arg7) :=
  (show StableHlo.after hostOps1_1 (W3 m ρ c) (Proc.devRef .tc main_arg7) = W3 m ρ c (Proc.devRef .tc main_arg7) by not_written).trans
    (show StableHlo.after hostOps1 (W2 m ρ c) (Proc.devRef .tc main_arg7) = W2 m ρ c (Proc.devRef .tc main_arg7) by not_written)

/-! ## From the second region's exit back to what was built before the first region -/

theorem arg4_at4' : W4 m ρ c (Proc.devRef .tc main_arg4) = (m ((c : Thread nD τ).loc main_arg4)) :=
  (arg4_at4 m ρ c).trans ((W2_of_ne m ρ c main_arg4 (by decide)).trans (arg4_at1 m ρ c))

theorem v1_at5 : W5 m ρ c (Proc.devRef .tc main_v1) = val_main_v1 (F := Ideal) (m ((c : Thread nD τ).loc main_arg1)) :=
  (W5_of_ne m ρ c main_v1 (by decide)).trans ((v1_at4 m ρ c).trans ((W2_of_ne m ρ c main_v1 (by decide)).trans (StageA.src m ρ c)))

theorem v3_at5 : W5 m ρ c (Proc.devRef .tc main_v3) = val_main_v3 (F := Ideal) (m ((c : Thread nD τ).loc main_arg1)) :=
  (W5_of_ne m ρ c main_v3 (by decide)).trans ((v3_at4 m ρ c).trans ((W2_of_ne m ρ c main_v3 (by decide)).trans (StageA.dst m ρ c)))

theorem v5_at5 : W5 m ρ c (Proc.devRef .tc main_v5) = val_main_v49 (F := Ideal) (m ((c : Thread nD τ).loc main_arg1)) :=
  (W5_of_ne m ρ c main_v5 (by decide)).trans ((v5_at4 m ρ c).trans ((W2_of_ne m ρ c main_v5 (by decide)).trans (StageA.srcLoops' m ρ c)))

theorem v6_at5 : W5 m ρ c (Proc.devRef .tc main_v6) = val_main_v50 (F := Ideal) (m ((c : Thread nD τ).loc main_arg1)) :=
  (W5_of_ne m ρ c main_v6 (by decide)).trans ((v6_at4 m ρ c).trans ((W2_of_ne m ρ c main_v6 (by decide)).trans (StageA.dstLoops' m ρ c)))

theorem v28_at5 : W5 m ρ c (Proc.devRef .tc main_v28) = val_main_v72 (F := Ideal) (m ((c : Thread nD τ).loc main_arg1)) :=
  (W5_of_ne m ρ c main_v28 (by decide)).trans ((v28_at4 m ρ c).trans ((W2_of_ne m ρ c main_v28 (by decide)).trans (StageA.weights' m ρ c)))

theorem arg5_at5 : W5 m ρ c (Proc.devRef .tc main_arg5) = (m ((c : Thread nD τ).loc main_arg5)) :=
  (W5_of_ne m ρ c main_arg5 (by decide)).trans ((arg5_at4 m ρ c).trans ((W2_of_ne m ρ c main_arg5 (by decide)).trans (arg5_at1 m ρ c)))

theorem arg6_at5 : W5 m ρ c (Proc.devRef .tc main_arg6) = (m ((c : Thread nD τ).loc main_arg6)) :=
  (W5_of_ne m ρ c main_arg6 (by decide)).trans ((arg6_at4 m ρ c).trans ((W2_of_ne m ρ c main_arg6 (by decide)).trans (arg6_at1 m ρ c)))

theorem arg7_at5 : W5 m ρ c (Proc.devRef .tc main_arg7) = (m ((c : Thread nD τ).loc main_arg7)) :=
  (W5_of_ne m ρ c main_arg7 (by decide)).trans ((arg7_at4 m ρ c).trans ((W2_of_ne m ρ c main_arg7 (by decide)).trans (arg7_at1 m ρ c)))

end Cert.Bridge.Carry

end
-- ==== Proof.LibPlainDot.lean ====
import Idealize.ShloMosaic.PureOps.Ideal.Laws
import Idealize.ShloMosaic.Lib.ValueIdx

noncomputable section

open scoped BigOperators

/-! # A plain two-dimensional product read at an entry

For the dimension numbers "rows by contraction, contraction by columns" (`DotDims.plain M K N`), entry `(r, c)` of a
matrix product into a zero accumulator, and of a host `dot_general`, is `∑ k : Fin K, l (r, k) * r (k, c)` on the
extended reals. Stated for any record `d` equal to the plain one, so that a printed record is passed with `rfl`. -/

namespace Cert.PlainDot

open Idealize.ShloMosaic Idealize.ShloMosaic.ValueIdx

variable {M K N : ℕ}

/-- The contraction's sum over the record's own index type is the sum over `Fin K` with the operands read at
    `(r, k)` and `(k, c)`. -/
theorem sum_plain (d : DotDims ⟨2, ![M, K]⟩ ⟨2, ![K, N]⟩ ⟨2, ![M, N]⟩) (hd : d = DotDims.plain M K N)
    (l : (⟨2, ![M, K]⟩ : Shape).Idx → EReal) (r : (⟨2, ![K, N]⟩ : Shape).Idx → EReal) (j : (⟨2, ![M, N]⟩ : Shape).Idx) :
    ∑ k : d.contr.Idx, l (d.lhsIdx j k) * r (d.rhsIdx j k) = ∑ k : Fin K, l (ix2 (j 0) k) * r (ix2 k (j 1)) := by
  subst hd
  rw [← Equiv.sum_comp (contrEquiv1 (DotDims.plain M K N) K rfl rfl).symm]
  refine Finset.sum_congr rfl fun k _ => ?_
  have hl : (DotDims.plain M K N).lhsIdx j ((contrEquiv1 (DotDims.plain M K N) K rfl rfl).symm k) = ix2 (j 0) k := by
    funext a
    match a with
    | ⟨0, _⟩ => exact Fin.ext rfl
    | ⟨1, _⟩ =>
      apply Fin.ext
      exact ((DotDims.plain M K N).lhsIdx_val_of_single (cl := 1) rfl j _).trans
        (contrEquiv1_symm_val (DotDims.plain M K N) K rfl rfl k)
  have hr : (DotDims.plain M K N).rhsIdx j ((contrEquiv1 (DotDims.plain M K N) K rfl rfl).symm k) = ix2 k (j 1) := by
    funext a
    match a with
    | ⟨0, _⟩ =>
      apply Fin.ext
      exact ((DotDims.plain M K N).rhsIdx_val_of_single (cr := 0) rfl j _).trans
        (contrEquiv1_symm_val (DotDims.plain M K N) K rfl rfl k)
    | ⟨1, _⟩ => exact Fin.ext rfl
  rw [hl, hr]
  rfl

/-- A matrix-unit product into the zero accumulator, at an entry. -/
theorem matmul_zero_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (j : (⟨2, ![M, N]⟩ : Shape).Idx) :
    FloatOps.matmul d prec l r (constant ⟨2, ![M, N]⟩ .f32 0x00000000#32) j = ∑ k : Fin K, l (ix2 (j 0) k) * r (ix2 k (j 1)) := by
  rw [Ideal.matmul_constant_zero_apply]; exact sum_plain d hd l r j

/-- A host `dot_general`, at an entry. -/
theorem dotGeneral_apply {φ₁ φ₂ : FTy} (d : DotDims ⟨2, ![M, K]⟩ ⟨2, ![K, N]⟩ ⟨2, ![M, N]⟩) (hd : d = DotDims.plain M K N)
    (prec : Option ContractPrecision) (sched : HostSchedule) (l : FVec Ideal ⟨2, ![M, K]⟩ φ₁) (r : FVec Ideal ⟨2, ![K, N]⟩ φ₂)
    (j : (⟨2, ![M, N]⟩ : Shape).Idx) :
    FloatOps.dotGeneral d prec sched l r j = ∑ k : Fin K, l (ix2 (j 0) k) * r (ix2 k (j 1)) := by
  rw [Ideal.dotGeneral_apply]; exact sum_plain d hd l r j

end Cert.PlainDot

end
-- ==== Proof.Spec.lean ====
import Idealize.ShloMosaic.Lib.ValueIdx

noncomputable section

open scoped BigOperators

/-! # The two array functions the three kernels compute, over the extended reals

A dense layer without bias is the matrix product: entry `(r, c)` is the sum over the contracted axis of the
left operand's row `r` times the right operand's column `c`. The edge head adds two such products, one per
endpoint of the edge, and a bias row shared by every edge. -/

namespace Cert.Spec

open Idealize.ShloMosaic Idealize.ShloMosaic.ValueIdx

/-- The matrix product of an `M × K` and a `K × N` array of extended reals. -/
def matProd {M K N : ℕ} (l : (⟨2, ![M, K]⟩ : Shape).Idx → EReal) (r : (⟨2, ![K, N]⟩ : Shape).Idx → EReal) :
    (⟨2, ![M, N]⟩ : Shape).Idx → EReal :=
  fun j => ∑ k : Fin K, l (ix2 (j 0) k) * r (ix2 k (j 1))

/-- The edge head: the product of the source endpoints' features with the upper weight block, plus the product of
    the target endpoints' features with the lower weight block, plus the bias row. -/
def edgeHead {E K N : ℕ} (xi xj : (⟨2, ![E, K]⟩ : Shape).Idx → EReal) (wi wj : (⟨2, ![K, N]⟩ : Shape).Idx → EReal)
    (b : (⟨2, ![1, N]⟩ : Shape).Idx → EReal) : (⟨2, ![E, N]⟩ : Shape).Idx → EReal :=
  fun j => matProd xi wi j + matProd xj wj j + b (ix2 0 (j 1))

end Cert.Spec

end
-- ==== Proof.Region0.lean ====
import proofs.«178281_j32615981646453_1_alg».proof.Proof.Gen.KernelIdeal.Frame
import proofs.«178281_j32615981646453_1_alg».proof.Proof.LibPlainDot
import proofs.«178281_j32615981646453_1_alg».proof.Proof.Spec
import Idealize.ShloMosaic.Lib.Pipeline.Value

set_option maxRecDepth 16384

noncomputable section

open scoped BigOperators

/-! # The first projection: what its output array holds after the region

The grid has ten points. Point `t` reads rows `10000 t … 10000 t + 9999` of the node features (all 128 columns) and
the whole 128 × 64 weight matrix, multiplies them into a zero accumulator, and writes rows `10000 t …` of the
output. The ten row blocks tile the 100000 × 64 output, so after the region the output array is the matrix product
of the two input arrays as the region found them: entry `(r, c)` is `∑ k, x (r, k) · w (k, c)` on the extended
reals (the change of float format before the product is the identity there). -/

namespace Cert.KernelIdeal.Proj0

open Cert.KernelIdeal Cert.KernelIdeal.Gen
open Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

theorem zeros : (![0, 0] : Fin 2 → Nat) = fun _ => 0 := funext fun a => by fin_cases a <;> rfl

/-- The body's product at an entry of the block: the sum over the 128 contracted positions. -/
theorem pay_apply (x : Vec Ideal S10000x128 .f32) (w : Vec Ideal S128x64 .f32) (j : S10000x64.Idx) :
    k0_pay1 (F := Ideal) x w j = ∑ k : Fin 128, x (ix2 (j 0) k) * w (ix2 k (j 1)) := by
  unfold k0_pay1
  exact Cert.PlainDot.matmul_zero_apply (M := 10000) (K := 128) (N := 64)
    dot_S10000x128_S128x64_S10000x64_1_0_0_1_n_n rfl none _ _ j

/-- The index maps over the grid: the feature block and the output block move together down the rows, one block
    per point; the weight block and every column block stay at 0. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 9 :=
  (by decide +kernel : ∀ t : Fin grid0.N, _)

/-- Every one of the ten row blocks is some point's. -/
theorem idx_onto : ∀ q : Fin 10, ∃ t : Fin cfg0.N, win0_2.index t = ![q.val, 0] :=
  (by decide +kernel : ∀ q : Fin 10, ∃ t : Fin grid0.N, win0_2.index t = ![q.val, 0])

/-- What point `t` writes back is block `t` of the matrix product of the two input arrays. -/
theorem flushed_eq (c : Dev nD) (t : Fin cfg0.N) :
    (dat0 V c).flushed 2 t = ((cfg0.win 2).blk t).view.read (Elt Ideal)
      (Cert.Spec.matProd (M := 100000) (K := 128) (N := 64) (V c main_arg0) (V c main_arg2)) := by
  show (cfg0.win 2).cut (grid0.coords t) ((dat0 V c).after 2 t) = _
  rw [after0_2]
  unfold out0_2
  rw [View.canon_unit_zero zeros]
  simp only [View.ld_unit_zero (S := S10000x128) zeros, View.ld_unit_zero (S := S128x64) zeros]
  obtain ⟨e0, e1, e2, e3, e4, e5⟩ := idx_facts t
  funext j
  refine (pay_apply _ _ j).trans ?_
  show _ = Cert.Spec.matProd (M := 100000) (K := 128) (N := 64) (V c main_arg0) (V c main_arg2) (((cfg0.win 2).blk t).view.emb j)
  simp only [Cert.Spec.matProd]
  refine Finset.sum_congr rfl fun k _ => congrArg₂ (· * ·) ?_ ?_
  · show V c main_arg0 (((cfg0.win 0).blk t).view.emb (ix2 (j 0) k)) = _
    refine congrArg (V c main_arg0) (funext fun a => Fin.ext ?_)
    match a with
    | ⟨0, _⟩ => show win0_0.index t (0 : Fin 2) * 10000 + 1 * (j 0).val = win0_2.index t (0 : Fin 2) * 10000 + 1 * (j 0).val; omega
    | ⟨1, _⟩ => show win0_0.index t (1 : Fin 2) * 128 + 1 * k.val = k.val; omega
  · show V c main_arg2 (((cfg0.win 1).blk t).view.emb (ix2 k (j 1))) = _
    refine congrArg (V c main_arg2) (funext fun a => Fin.ext ?_)
    match a with
    | ⟨0, _⟩ => show win0_1.index t (0 : Fin 2) * 128 + 1 * k.val = k.val; omega
    | ⟨1, _⟩ => show win0_1.index t (1 : Fin 2) * 64 + 1 * (j 1).val = win0_2.index t (1 : Fin 2) * 64 + 1 * (j 1).val; omega

/-- An index of the output array is in point `t`'s block iff each coordinate is in the block's range. -/
theorem mem_blk (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v29).slice (win0_2.rect t)).set ↔ _
  rw [View.set_slice_whole, Rect.mem_set_unit]
  exact Iff.rfl

/-- The ten row blocks cover the output array: row `r` is in the block of the point whose index is `r / 10000`. -/
theorem cover (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ := idx_onto ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 64 ≤ (i 1).val ∧ (i 1).val < win0_2.index t (1 : Fin 2) * 64 + 64; omega

/-- The output array after the region is the matrix product of the two input arrays as the region found them. -/
theorem final (c : Dev nD) :
    (dat0 V c).arrAt 2 cfg0.N = Cert.Spec.matProd (M := 100000) (K := 128) (N := 64) (V c main_arg0) (V c main_arg2) :=
  (dat0 V c).arrAt_eq_of_cover 2 _ (fun t _ => flushed_eq V c t) cover

end Cert.KernelIdeal.Proj0

end
-- ==== Proof.Region1.lean ====
import proofs.«178281_j32615981646453_1_alg».proof.Proof.Gen.KernelIdeal.Frame
import proofs.«178281_j32615981646453_1_alg».proof.Proof.LibPlainDot
import proofs.«178281_j32615981646453_1_alg».proof.Proof.Spec
import Idealize.ShloMosaic.Lib.Pipeline.Value

set_option maxRecDepth 16384

noncomputable section

open scoped BigOperators

/-! # The second projection: what its output array holds after the region

Again ten points. Point `t` reads rows `10000 t … 10000 t + 9999` of the hidden features (64 columns) and the whole
64 × 64 weight matrix and writes the same rows of the output: the product into a zero accumulator. The row blocks
tile the 100000 × 64 output, so it ends as the matrix product of the two input arrays as the region found them,
`∑ k, h (r, k) · w (k, c)` over the 64 contracted positions. -/

namespace Cert.KernelIdeal.Proj1

open Cert.KernelIdeal Cert.KernelIdeal.Gen
open Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

theorem zeros : (![0, 0] : Fin 2 → Nat) = fun _ => 0 := funext fun a => by fin_cases a <;> rfl

/-- The body's product at an entry of the block (the cast to the same shape in front of it reads through). -/
theorem pay_apply (x : Vec Ideal S10000x64 .f32) (w : Vec Ideal S64x64 .f32) (j : S10000x64.Idx) :
    k1_pay1 (F := Ideal) x w j = ∑ k : Fin 64, x (ix2 (j 0) k) * w (ix2 k (j 1)) := by
  unfold k1_pay1
  rw [shapeCast_self]
  exact Cert.PlainDot.matmul_zero_apply (M := 10000) (K := 64) (N := 64)
    dot_S10000x64_S64x64_S10000x64_1_0_0_1_n_n rfl none _ _ j

/-- The index maps over the grid: the feature block and the output block move together down the rows; the weight
    block and every column block stay at 0. -/
theorem idx_facts : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (1 : Fin 2) = 0
    ∧ win1_2.index t (0 : Fin 2) ≤ 9 :=
  (by decide +kernel : ∀ t : Fin grid1.N, _)

/-- Every one of the ten row blocks is some point's. -/
theorem idx_onto : ∀ q : Fin 10, ∃ t : Fin cfg1.N, win1_2.index t = ![q.val, 0] :=
  (by decide +kernel : ∀ q : Fin 10, ∃ t : Fin grid1.N, win1_2.index t = ![q.val, 0])

/-- What point `t` writes back is block `t` of the matrix product of the two input arrays. -/
theorem flushed_eq (c : Dev nD) (t : Fin cfg1.N) :
    (dat1 V c).flushed 2 t = ((cfg1.win 2).blk t).view.read (Elt Ideal)
      (Cert.Spec.matProd (M := 100000) (K := 64) (N := 64) (V c main_v46) (V c main_arg4)) := by
  show (cfg1.win 2).cut (grid1.coords t) ((dat1 V c).after 2 t) = _
  rw [after1_2]
  unfold out1_2
  rw [View.canon_unit_zero zeros]
  simp only [View.ld_unit_zero (S := S10000x64) zeros, View.ld_unit_zero (S := S64x64) zeros]
  obtain ⟨e0, e1, e2, e3, e4, e5⟩ := idx_facts t
  funext j
  refine (pay_apply _ _ j).trans ?_
  show _ = Cert.Spec.matProd (M := 100000) (K := 64) (N := 64) (V c main_v46) (V c main_arg4) (((cfg1.win 2).blk t).view.emb j)
  simp only [Cert.Spec.matProd]
  refine Finset.sum_congr rfl fun k _ => congrArg₂ (· * ·) ?_ ?_
  · show V c main_v46 (((cfg1.win 0).blk t).view.emb (ix2 (j 0) k)) = _
    refine congrArg (V c main_v46) (funext fun a => Fin.ext ?_)
    match a with
    | ⟨0, _⟩ => show win1_0.index t (0 : Fin 2) * 10000 + 1 * (j 0).val = win1_2.index t (0 : Fin 2) * 10000 + 1 * (j 0).val; omega
    | ⟨1, _⟩ => show win1_0.index t (1 : Fin 2) * 64 + 1 * k.val = k.val; omega
  · show V c main_arg4 (((cfg1.win 1).blk t).view.emb (ix2 k (j 1))) = _
    refine congrArg (V c main_arg4) (funext fun a => Fin.ext ?_)
    match a with
    | ⟨0, _⟩ => show win1_1.index t (0 : Fin 2) * 64 + 1 * k.val = k.val; omega
    | ⟨1, _⟩ => show win1_1.index t (1 : Fin 2) * 64 + 1 * (j 1).val = win1_2.index t (1 : Fin 2) * 64 + 1 * (j 1).val; omega

/-- An index of the output array is in point `t`'s block iff each coordinate is in the block's range. -/
theorem mem_blk (t : Fin cfg1.N) (i : S100000x64.Idx) :
    i ∈ ((cfg1.win 2).blk t).view.set ↔ ∀ a : Fin 2, win1_2.index t a * S10000x64.size a ≤ (i a).val ∧ (i a).val < win1_2.index t a * S10000x64.size a + S10000x64.size a := by
  show i ∈ ((View.whole main_v47).slice (win1_2.rect t)).set ↔ _
  rw [View.set_slice_whole, Rect.mem_set_unit]
  exact Iff.rfl

/-- The ten row blocks cover the output array. -/
theorem cover (i : S100000x64.Idx) : ∃ t : Fin cfg1.N, (cfg1.win 2).flush t = true ∧ i ∈ ((cfg1.win 2).blk t).view.set := by
  have hi0 : (i 0).val < 100000 := (i 0).isLt
  have hi1 : (i 1).val < 64 := (i 1).isLt
  obtain ⟨t, ht⟩ := idx_onto ⟨(i 0).val / 10000, by omega⟩
  have q0 : win1_2.index t (0 : Fin 2) = (i 0).val / 10000 := congrFun ht 0
  have q1 : win1_2.index t (1 : Fin 2) = 0 := congrFun ht 1
  refine ⟨t, flush1_2 t, ?_⟩
  rw [mem_blk]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 64 ≤ (i 1).val ∧ (i 1).val < win1_2.index t (1 : Fin 2) * 64 + 64; omega

/-- The output array after the region is the matrix product of the two input arrays as the region found them. -/
theorem final (c : Dev nD) :
    (dat1 V c).arrAt 2 cfg1.N = Cert.Spec.matProd (M := 100000) (K := 64) (N := 64) (V c main_v46) (V c main_arg4) :=
  (dat1 V c).arrAt_eq_of_cover 2 _ (fun t _ => flushed_eq V c t) cover

end Cert.KernelIdeal.Proj1

end
-- ==== Proof.Region2.lean ====
import proofs.«178281_j32615981646453_1_alg».proof.Proof.Gen.KernelIdeal.Frame
import proofs.«178281_j32615981646453_1_alg».proof.Proof.LibPlainDot
import proofs.«178281_j32615981646453_1_alg».proof.Proof.Spec
import Idealize.ShloMosaic.Lib.Pipeline.Value
import Idealize.ShloMosaic.Lib.ValueLayout

set_option maxRecDepth 16384

noncomputable section

open scoped BigOperators

/-! # The edge head: what its output array holds after the region

The grid has a hundred points. Point `t` reads rows `16000 t … 16000 t + 15999` of the two gathered feature arrays
(64 columns each), the two 64 × 8 weight blocks and the 1 × 8 bias row whole, and writes the same rows of the
1600000 × 8 output: the first features times the first block, plus the second features times the second block,
plus the bias row repeated down the rows. The row blocks tile the output, so entry `(e, f)` ends as
`∑ k, xi (e, k) · wi (k, f) + ∑ k, xj (e, k) · wj (k, f) + b (0, f)` of the five input arrays as the region
found them. -/

namespace Cert.KernelIdeal.Head

open Cert.KernelIdeal Cert.KernelIdeal.Gen
open Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

theorem zeros : (![0, 0] : Fin 2 → Nat) = fun _ => 0 := funext fun a => by fin_cases a <;> rfl

/-- The body's value at an entry of the block: two sums over the 64 contracted positions and the bias entry of
    the column (the casts to the same shape read through; the bias row is repeated down the rows). -/
theorem pay_apply (xi xj : Vec Ideal S16000x64 .f32) (wi wj : Vec Ideal S64x8 .f32) (b : Vec Ideal S1x8 .f32)
    (p : Fin 16000) (q : Fin 8) :
    k2_pay1 (F := Ideal) xi xj wi wj b (ix2 p q)
      = (∑ k : Fin 64, xi (ix2 p k) * wi (ix2 k q)) + (∑ k : Fin 64, xj (ix2 p k) * wj (ix2 k q)) + b (ix2 (0 : Fin 1) q) := by
  unfold k2_pay1
  simp only [shapeCast_self]
  refine congrArg₂ (· + ·) (congrArg₂ (· + ·) ?_ ?_) ?_
  · exact Cert.PlainDot.matmul_zero_apply (M := 16000) (K := 64) (N := 8)
      dot_S16000x64_S64x8_S16000x8_1_0_0_1_n_n rfl none _ _ (ix2 p q)
  · exact Cert.PlainDot.matmul_zero_apply (M := 16000) (K := 64) (N := 8)
      dot_S16000x64_S64x8_S16000x8_1_0_0_1_n_n rfl none _ _ (ix2 p q)
  · exact broadcastTo_1b_ab_apply (a := 16000) (b := 8) b broadcasts_S1x8_S16000x8 p q

/-- The index maps over the grid: the two feature blocks and the output block move together down the rows, one
    block per point; the weight blocks, the bias block and every column block stay at 0. -/
theorem idx_facts : ∀ t : Fin cfg2.N, win2_0.index t (0 : Fin 2) = win2_5.index t (0 : Fin 2)
    ∧ win2_0.index t (1 : Fin 2) = 0
    ∧ win2_1.index t (0 : Fin 2) = win2_5.index t (0 : Fin 2)
    ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (1 : Fin 2) = 0
    ∧ win2_5.index t (0 : Fin 2) ≤ 99 :=
  (by decide +kernel : ∀ t : Fin grid2.N, _)

/-- Every one of the hundred row blocks is some point's. -/
theorem idx_onto : ∀ q : Fin 100, ∃ t : Fin cfg2.N, win2_5.index t = ![q.val, 0] :=
  (by decide +kernel : ∀ q : Fin 100, ∃ t : Fin grid2.N, win2_5.index t = ![q.val, 0])

set_option maxHeartbeats 4000000 in
/-- What point `t` writes back is block `t` of the edge head of the five input arrays. -/
theorem flushed_eq (c : Dev nD) (t : Fin cfg2.N) :
    (dat2 V c).flushed 5 t = ((cfg2.win 5).blk t).view.read (Elt Ideal)
      (Cert.Spec.edgeHead (E := 1600000) (K := 64) (N := 8) (V c main_v71) (V c main_v78) (V c main_v79) (V c main_v80) (V c main_v81)) := by
  show (cfg2.win 5).cut (grid2.coords t) ((dat2 V c).after 5 t) = _
  rw [after2_5]
  unfold out2_5
  rw [View.canon_unit_zero zeros]
  simp only [View.ld_unit_zero (S := S16000x64) zeros, View.ld_unit_zero (S := S64x8) zeros, View.ld_unit_zero (S := S1x8) zeros]
  obtain ⟨e0, e1, e2, e3, e4, e5, e6, e7, e8, e9, e10, e11⟩ := idx_facts t
  funext j
  obtain ⟨p, q, rfl⟩ : ∃ (p : Fin 16000) (q : Fin 8), j = ix2 p q := ⟨j 0, j 1, eq_ix2 j⟩
  refine (pay_apply _ _ _ _ _ p q).trans ?_
  show _ = Cert.Spec.edgeHead (E := 1600000) (K := 64) (N := 8) (V c main_v71) (V c main_v78) (V c main_v79) (V c main_v80) (V c main_v81)
    (((cfg2.win 5).blk t).view.emb (ix2 p q))
  simp only [Cert.Spec.edgeHead, Cert.Spec.matProd]
  refine congrArg₂ (· + ·) (congrArg₂ (· + ·) (Finset.sum_congr rfl fun k _ => congrArg₂ (· * ·) ?_ ?_)
    (Finset.sum_congr rfl fun k _ => congrArg₂ (· * ·) ?_ ?_)) ?_
  · show V c main_v71 (((cfg2.win 0).blk t).view.emb (ix2 p k)) = _
    refine congrArg (V c main_v71) (funext fun a => Fin.ext ?_)
    match a with
    | ⟨0, _⟩ => show win2_0.index t (0 : Fin 2) * 16000 + 1 * p.val = win2_5.index t (0 : Fin 2) * 16000 + 1 * p.val; omega
    | ⟨1, _⟩ => show win2_0.index t (1 : Fin 2) * 64 + 1 * k.val = k.val; omega
  · show V c main_v79 (((cfg2.win 2).blk t).view.emb (ix2 k q)) = _
    refine congrArg (V c main_v79) (funext fun a => Fin.ext ?_)
    match a with
    | ⟨0, _⟩ => show win2_2.index t (0 : Fin 2) * 64 + 1 * k.val = k.val; omega
    | ⟨1, _⟩ => show win2_2.index t (1 : Fin 2) * 8 + 1 * q.val = win2_5.index t (1 : Fin 2) * 8 + 1 * q.val; omega
  · show V c main_v78 (((cfg2.win 1).blk t).view.emb (ix2 p k)) = _
    refine congrArg (V c main_v78) (funext fun a => Fin.ext ?_)
    match a with
    | ⟨0, _⟩ => show win2_1.index t (0 : Fin 2) * 16000 + 1 * p.val = win2_5.index t (0 : Fin 2) * 16000 + 1 * p.val; omega
    | ⟨1, _⟩ => show win2_1.index t (1 : Fin 2) * 64 + 1 * k.val = k.val; omega
  · show V c main_v80 (((cfg2.win 3).blk t).view.emb (ix2 k q)) = _
    refine congrArg (V c main_v80) (funext fun a => Fin.ext ?_)
    match a with
    | ⟨0, _⟩ => show win2_3.index t (0 : Fin 2) * 64 + 1 * k.val = k.val; omega
    | ⟨1, _⟩ => show win2_3.index t (1 : Fin 2) * 8 + 1 * q.val = win2_5.index t (1 : Fin 2) * 8 + 1 * q.val; omega
  · show V c main_v81 (((cfg2.win 4).blk t).view.emb (ix2 (0 : Fin 1) q)) = _
    refine congrArg (V c main_v81) (funext fun a => Fin.ext ?_)
    match a with
    | ⟨0, _⟩ => show win2_4.index t (0 : Fin 2) * 1 + 1 * 0 = 0; omega
    | ⟨1, _⟩ => show win2_4.index t (1 : Fin 2) * 8 + 1 * q.val = win2_5.index t (1 : Fin 2) * 8 + 1 * q.val; omega

/-- An index of the output array is in point `t`'s block iff each coordinate is in the block's range. -/
theorem mem_blk (t : Fin cfg2.N) (i : S1600000x8.Idx) :
    i ∈ ((cfg2.win 5).blk t).view.set ↔ ∀ a : Fin 2, win2_5.index t a * S16000x8.size a ≤ (i a).val ∧ (i a).val < win2_5.index t a * S16000x8.size a + S16000x8.size a := by
  show i ∈ ((View.whole main_v82).slice (win2_5.rect t)).set ↔ _
  rw [View.set_slice_whole, Rect.mem_set_unit]
  exact Iff.rfl

/-- The hundred row blocks cover the output array: row `e` is in the block of the point whose index is `e / 16000`. -/
theorem cover (i : S1600000x8.Idx) : ∃ t : Fin cfg2.N, (cfg2.win 5).flush t = true ∧ i ∈ ((cfg2.win 5).blk t).view.set := by
  have hi0 : (i 0).val < 1600000 := (i 0).isLt
  have hi1 : (i 1).val < 8 := (i 1).isLt
  obtain ⟨t, ht⟩ := idx_onto ⟨(i 0).val / 16000, by omega⟩
  have q0 : win2_5.index t (0 : Fin 2) = (i 0).val / 16000 := congrFun ht 0
  have q1 : win2_5.index t (1 : Fin 2) = 0 := congrFun ht 1
  refine ⟨t, flush2_5 t, ?_⟩
  rw [mem_blk]
  intro a
  match a with
  | ⟨0, _⟩ => show win2_5.index t (0 : Fin 2) * 16000 ≤ (i 0).val ∧ (i 0).val < win2_5.index t (0 : Fin 2) * 16000 + 16000; omega
  | ⟨1, _⟩ => show win2_5.index t (1 : Fin 2) * 8 ≤ (i 1).val ∧ (i 1).val < win2_5.index t (1 : Fin 2) * 8 + 8; omega

/-- The output array after the region is the edge head of the five input arrays as the region found them. -/
theorem final (c : Dev nD) :
    (dat2 V c).arrAt 5 cfg2.N = Cert.Spec.edgeHead (E := 1600000) (K := 64) (N := 8) (V c main_v71) (V c main_v78) (V c main_v79) (V c main_v80) (V c main_v81) :=
  (dat2 V c).arrAt_eq_of_cover 5 _ (fun t _ => flushed_eq V c t) cover

end Cert.KernelIdeal.Head

end
-- ==== Proof.HeadAlgebra.lean ====
import proofs.«178281_j32615981646453_1_alg».proof.KernelIdeal
import proofs.«178281_j32615981646453_1_alg».proof.ReferenceIdeal
import proofs.«178281_j32615981646453_1_alg».proof.Proof.Gen.KernelIdeal
import proofs.«178281_j32615981646453_1_alg».proof.Proof.Gen.ReferenceIdeal
import proofs.«178281_j32615981646453_1_alg».proof.Proof.LibPlainDot
import proofs.«178281_j32615981646453_1_alg».proof.Proof.Spec
import Idealize.ShloMosaic.Lib.Pipeline.Value
import Idealize.ShloMosaic.Lib.ValueLayout

set_option maxRecDepth 16384

noncomputable section

open scoped BigOperators

/-! # One product over the joined features is two products over the halves

The reference joins the two gathered feature arrays side by side into 128 columns and multiplies by the whole
128 × 8 weight matrix; the kernel multiplies each 64-column array by its own half of the weight matrix (rows 0–63
and rows 64–127) and adds. Entry `(e, f)` of the reference's product is a sum over 128 positions; its first 64 terms
read the first array and the upper weight rows, its last 64 the second array and the lower rows: the sum splits
at 64, which needs only that addition on the extended reals is associative and commutative. The bias is the same
entry `bl f` on both sides: the reference repeats the bias down the rows, the kernel reads row 0 of the bias laid
out as one row. -/

namespace Cert.HeadAlgebra

open Idealize.ShloMosaic Idealize.ShloMosaic.ValueIdx

/-- The edge head at an entry: two sums over the contracted positions and the bias entry of the column. -/
theorem edgeHead_apply {E K N : ℕ} (xi xj : (⟨2, ![E, K]⟩ : Shape).Idx → EReal) (wi wj : (⟨2, ![K, N]⟩ : Shape).Idx → EReal)
    (b : (⟨2, ![1, N]⟩ : Shape).Idx → EReal) (p : Fin E) (q : Fin N) :
    Cert.Spec.edgeHead xi xj wi wj b (ix2 p q)
      = (∑ k : Fin K, xi (ix2 p k) * wi (ix2 k q)) + (∑ k : Fin K, xj (ix2 p k) * wj (ix2 k q)) + b (ix2 (0 : Fin 1) q) := rfl

/-- The bias, made a row and repeated down all rows, read at `(p, q)`, is the bias at `q`. -/
theorem bias_apply (bl : FVec Ideal Cert.ReferenceIdeal.S8 .f32) (p : Fin 1600000) (q : Fin 8) :
    broadcastInDim Cert.ReferenceIdeal.S1600000x8 ![0, 1] Cert.ReferenceIdeal.Facts₀.bcast_S1x8_S1600000x8_0_1
      (broadcastInDim Cert.ReferenceIdeal.S1x8 ![1] Cert.ReferenceIdeal.Facts₀.bcast_S8_S1x8_1 bl) (ix2 p q) = bl (ix1 q) := by
  rw [broadcastInDim_apply ![0, 1] Cert.ReferenceIdeal.Facts₀.bcast_S1x8_S1600000x8_0_1 _ (ix2 p q) (ix2 (0 : Fin 1) q) (fun a => by
    match a with
    | ⟨0, _⟩ => show 0 = if (1 : Nat) = 1 then 0 else p.val; rw [if_pos rfl]
    | ⟨1, _⟩ => show q.val = if (8 : Nat) = 1 then 0 else q.val; rw [if_neg (by decide)])]
  exact broadcastInDim_apply ![1] Cert.ReferenceIdeal.Facts₀.bcast_S8_S1x8_1 bl (ix2 (0 : Fin 1) q) (ix1 q) (fun a => by
    match a with
    | ⟨0, _⟩ => show q.val = if (8 : Nat) = 1 then 0 else q.val; rw [if_neg (by decide)])

/-- The joined array at a column below 64 is the first array there. -/
theorem join_left (xi xj : FVec Ideal Cert.ReferenceIdeal.S1600000x64 .f32) (p : Fin 1600000) (k : Fin 64) :
    concatenate Cert.ReferenceIdeal.S1600000x128 1 [⟨Cert.ReferenceIdeal.S1600000x64, xi⟩, ⟨Cert.ReferenceIdeal.S1600000x64, xj⟩]
      Cert.ReferenceIdeal.Facts₀.concatenates_S1600000x64_S1600000x64_S1600000x128_d1 (ix2 p (Fin.castAdd 64 k : Fin 128)) = xi (ix2 p k) :=
  concatenate_pair_apply_left 1 xi xj _ (ix2 p (Fin.castAdd 64 k : Fin 128)) rfl (ix2 p k) (fun b => by
    match b with
    | ⟨0, _⟩ => rfl
    | ⟨1, _⟩ => rfl)

/-- The joined array at column `64 + k` is the second array at column `k`. -/
theorem join_right (xi xj : FVec Ideal Cert.ReferenceIdeal.S1600000x64 .f32) (p : Fin 1600000) (k : Fin 64) :
    concatenate Cert.ReferenceIdeal.S1600000x128 1 [⟨Cert.ReferenceIdeal.S1600000x64, xi⟩, ⟨Cert.ReferenceIdeal.S1600000x64, xj⟩]
      Cert.ReferenceIdeal.Facts₀.concatenates_S1600000x64_S1600000x64_S1600000x128_d1 (ix2 p (Fin.natAdd 64 k : Fin 128)) = xj (ix2 p k) :=
  concatenate_pair_apply_right 1 xi xj _ (ix2 p (Fin.natAdd 64 k : Fin 128)) rfl rfl (ix2 p k) (fun b => by
    match b with
    | ⟨0, _⟩ => exact fun _ => rfl
    | ⟨1, _⟩ => exact fun h => absurd rfl h) (by show k.val + 64 = 64 + k.val; omega)

/-- The reference's head is the edge head of the two feature arrays, the two halves of the weight matrix and the
    bias as one row. -/
theorem head_eq (xi xj : FVec Ideal Cert.ReferenceIdeal.S1600000x64 .f32) (wl : FVec Ideal Cert.ReferenceIdeal.S128x8 .f32)
    (bl : FVec Ideal Cert.ReferenceIdeal.S8 .f32) :
    addf (Host.dotGeneral Cert.ReferenceIdeal.dot_S1600000x128_S128x8_S1600000x8_1_0_0_1_n_n none
        (concatenate Cert.ReferenceIdeal.S1600000x128 1 [⟨Cert.ReferenceIdeal.S1600000x64, xi⟩, ⟨Cert.ReferenceIdeal.S1600000x64, xj⟩]
          Cert.ReferenceIdeal.Facts₀.concatenates_S1600000x64_S1600000x64_S1600000x128_d1) wl)
      (broadcastInDim Cert.ReferenceIdeal.S1600000x8 ![0, 1] Cert.ReferenceIdeal.Facts₀.bcast_S1x8_S1600000x8_0_1
        (broadcastInDim Cert.ReferenceIdeal.S1x8 ![1] Cert.ReferenceIdeal.Facts₀.bcast_S8_S1x8_1 bl))
    = Cert.Spec.edgeHead (E := 1600000) (K := 64) (N := 8) xi xj
        (extractStridedSlice Cert.KernelIdeal.S64x8 ![0, 0] wl Cert.KernelIdeal.Facts₀.slices_S128x8_S64x8_0_0)
        (extractStridedSlice Cert.KernelIdeal.S64x8 ![64, 0] wl Cert.KernelIdeal.Facts₀.slices_S128x8_S64x8_64_0)
        (shapeCast Cert.KernelIdeal.S1x8 bl Cert.KernelIdeal.Facts₀.shapeCasts_S8_S1x8) := by
  funext j
  obtain ⟨p, q, rfl⟩ : ∃ (p : Fin 1600000) (q : Fin 8), j = ix2 p q := ⟨j 0, j 1, eq_ix2 j⟩
  rw [addf_apply, bias_apply, edgeHead_apply]
  simp only [Host.dotGeneral]
  rw [Cert.PlainDot.dotGeneral_apply (M := 1600000) (K := 128) (N := 8) Cert.ReferenceIdeal.dot_S1600000x128_S128x8_S1600000x8_1_0_0_1_n_n rfl,
    shapeCast_a_1a_apply bl Cert.KernelIdeal.Facts₀.shapeCasts_S8_S1x8 (0 : Fin 1) q]
  refine congrArg₂ (· + ·) ?_ rfl
  rw [show (∑ k : Fin 128, concatenate Cert.ReferenceIdeal.S1600000x128 1 [⟨Cert.ReferenceIdeal.S1600000x64, xi⟩, ⟨Cert.ReferenceIdeal.S1600000x64, xj⟩]
        Cert.ReferenceIdeal.Facts₀.concatenates_S1600000x64_S1600000x64_S1600000x128_d1 (ix2 p k) * wl (ix2 k q))
      = ∑ k : Fin (64 + 64), concatenate Cert.ReferenceIdeal.S1600000x128 1 [⟨Cert.ReferenceIdeal.S1600000x64, xi⟩, ⟨Cert.ReferenceIdeal.S1600000x64, xj⟩]
        Cert.ReferenceIdeal.Facts₀.concatenates_S1600000x64_S1600000x64_S1600000x128_d1 (ix2 p (k : Fin 128)) * wl (ix2 (k : Fin 128) q) from rfl,
    Fin.sum_univ_add]
  refine congrArg₂ (· + ·) (Finset.sum_congr rfl fun k _ => ?_) (Finset.sum_congr rfl fun k _ => ?_)
  · rw [join_left, slice2_axis0_apply 0 wl Cert.KernelIdeal.Facts₀.slices_S128x8_S64x8_0_0 k q (Fin.castAdd 64 k : Fin 128) (by show k.val = 0 + k.val; omega)]
  · rw [join_right, slice2_axis0_apply 64 wl Cert.KernelIdeal.Facts₀.slices_S128x8_S64x8_64_0 k q (Fin.natAdd 64 k : Fin 128) rfl]

end Cert.HeadAlgebra

end
-- ==== Proof.Stages.lean ====
import proofs.«178281_j32615981646453_1_alg».proof.Proof.Gen.KernelIdeal.Frame
import proofs.«178281_j32615981646453_1_alg».proof.Proof.Gen.ReferenceIdeal.Read
import proofs.«178281_j32615981646453_1_alg».proof.Proof.Carry
import proofs.«178281_j32615981646453_1_alg».proof.Proof.Region0
import proofs.«178281_j32615981646453_1_alg».proof.Proof.Region1
import proofs.«178281_j32615981646453_1_alg».proof.Proof.Region2
import proofs.«178281_j32615981646453_1_alg».proof.Proof.HeadAlgebra
set_option maxRecDepth 16384

noncomputable section

open scoped BigOperators

/-! # The kernel's arrays, boundary by boundary, are the reference's stages

At the first region's entry the bookkeeping arrays are the reference's (the first module of this bridge). From there:
the first projection's output is the reference's first matrix product (a product into a zero accumulator and the
host's product are the same sum over the contracted axis); the host stretch that follows applies the same
operations as the reference to equal arrays (weights, gathered rows, scatter-add, bias, the maximum with zero), so
the hidden features are equal; the second projection and the second stretch repeat this; the two gathers for the
edge head read equal arrays at the same endpoint lists; and the edge head's output is the reference's product over
the joined features plus the bias. Every step but the three regions compares the two programs' terms operation by
operation, the kernel's arrays having been rewritten to the reference's stages first. -/

namespace Cert.Bridge.Stages

open Cert.KernelIdeal Cert.KernelIdeal.Gen
open Cert.ReferenceIdeal.Read
open Idealize.ShloMosaic Idealize.ShloMosaic.TcCoe Idealize.ShloMosaic.StableHlo

variable (m : (ℓ : Loc nD τ sig) → Buf (Elt Ideal) ℓ) (ρ : Dev nD → PrngReg) (c : Dev nD)

open Cert.Bridge

/-- The first projection's output array is the reference's first product. -/
theorem proj0 : W2 m ρ c (Proc.devRef .tc main_v29) = val_main_v4 (F := Ideal) (m ((c : Thread nD τ).loc main_arg0)) (m ((c : Thread nD τ).loc main_arg2)) := by
  refine ((W2_arr m ρ c 2).trans (Cert.KernelIdeal.Proj0.final (V1 m ρ) c)).trans ?_
  show Cert.Spec.matProd (M := 100000) (K := 128) (N := 64) (W1 m ρ c (Proc.devRef .tc main_arg0)) (W1 m ρ c (Proc.devRef .tc main_arg2)) = _
  rw [Carry.arg0_at1, Carry.arg2_at1]
  funext j
  unfold val_main_v4
  simp only [Host.dotGeneral, Cert.Spec.matProd]
  exact (Cert.PlainDot.dotGeneral_apply (M := 100000) (K := 128) (N := 64)
    Cert.ReferenceIdeal.dot_S100000x128_S128x64_S100000x64_1_0_0_1_n_n rfl none _ _ _ j).symm

/-- The maximum with zero that closes the first layer (its three host operations), whatever the contents before it. -/
theorem relu1 (W : Valuation τ sig (Elt Ideal)) :
    StableHlo.after hostOps1_1 W (Proc.devRef .tc main_v46)
      = maximumf (W (Proc.devRef .tc main_v45))
          (broadcastInDim S100000x64 ![] bcast_S_S100000x64 (constant (F := Ideal) S_ .f32 0x00000000#32)) := by
  dsimp only [hostOps1_1]
  after_results_simp
  rfl

set_option maxHeartbeats 8000000 in
/-- The first layer before its maximum with zero: the weighted rows scattered onto their targets, plus the bias. -/
theorem pre1 : W3 m ρ c (Proc.devRef .tc main_v45) = val_main_v45 (F := Ideal) (m ((c : Thread nD τ).loc main_arg0)) (m ((c : Thread nD τ).loc main_arg1)) (m ((c : Thread nD τ).loc main_arg2)) (m ((c : Thread nD τ).loc main_arg3)) := by
  dsimp only [W3, hostOps1]
  after_results_simp
  rw [proj0, W2_of_ne m ρ c main_v28 (by decide), W2_of_ne m ρ c main_v5 (by decide), W2_of_ne m ρ c main_v6 (by decide),
    W2_of_ne m ρ c main_arg3 (by decide), StageA.weights, StageA.srcLoops, StageA.dstLoops, Carry.arg3_at1]
  rfl

/-- The hidden features after the first layer. -/
theorem layer1 : W4 m ρ c (Proc.devRef .tc main_v46) = val_main_v46 (F := Ideal) (m ((c : Thread nD τ).loc main_arg0)) (m ((c : Thread nD τ).loc main_arg1)) (m ((c : Thread nD τ).loc main_arg2)) (m ((c : Thread nD τ).loc main_arg3)) := by
  refine (relu1 (W3 m ρ c)).trans ?_
  rw [pre1]
  rfl

/-- The second projection's output array is the reference's second product. -/
theorem proj1 : W5 m ρ c (Proc.devRef .tc main_v47) = val_main_v47 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine ((W5_arr m ρ c 2).trans (Cert.KernelIdeal.Proj1.final (V4 m ρ) c)).trans ?_
  show Cert.Spec.matProd (M := 100000) (K := 64) (N := 64) (W4 m ρ c (Proc.devRef .tc main_v46)) (W4 m ρ c (Proc.devRef .tc main_arg4)) = _
  rw [layer1, Carry.arg4_at4']
  funext j
  unfold val_main_v47
  simp only [Host.dotGeneral, Cert.Spec.matProd]
  exact (Cert.PlainDot.dotGeneral_apply (M := 100000) (K := 64) (N := 64)
    Cert.ReferenceIdeal.dot_S100000x64_S64x64_S100000x64_1_0_0_1_n_n rfl none _ _ _ j).symm

/-- The maximum with zero that closes the second layer, whatever the contents before it. -/
theorem relu2 (W : Valuation τ sig (Elt Ideal)) :
    StableHlo.after hostOps2_1 W (Proc.devRef .tc main_v64)
      = maximumf (W (Proc.devRef .tc main_v63))
          (broadcastInDim S100000x64 ![] bcast_S_S100000x64 (constant (F := Ideal) S_ .f32 0x00000000#32)) := by
  dsimp only [hostOps2_1]
  after_results_simp
  rfl

set_option maxHeartbeats 8000000 in
/-- The second layer before its maximum with zero. -/
theorem pre2 : W6 m ρ c (Proc.devRef .tc main_v63) = val_main_v88 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  dsimp only [W6, hostOps2]
  after_results_simp
  rw [proj1, Carry.v28_at5, Carry.v5_at5, Carry.v6_at5, Carry.arg5_at5]
  rfl

/-- The hidden features after the second layer. -/
theorem layer2 : W7 m ρ c (Proc.devRef .tc main_v64) = val_main_v89 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (relu2 (W6 m ρ c)).trans ?_
  rw [pre2]
  rfl

/-- The source endpoints are still what they were when the gathers for the head read them. -/
theorem src_at7 : W7 m ρ c (Proc.devRef .tc main_v1) = val_main_v1 (F := Ideal) (m ((c : Thread nD τ).loc main_arg1)) :=
  (show StableHlo.after hostOps2_1 (W6 m ρ c) (Proc.devRef .tc main_v1) = W6 m ρ c (Proc.devRef .tc main_v1) by not_written).trans
    ((show StableHlo.after hostOps2 (W5 m ρ c) (Proc.devRef .tc main_v1) = W5 m ρ c (Proc.devRef .tc main_v1) by not_written).trans (Carry.v1_at5 m ρ c))

/-- So are the target endpoints. -/
theorem dst_at7 : W7 m ρ c (Proc.devRef .tc main_v3) = val_main_v3 (F := Ideal) (m ((c : Thread nD τ).loc main_arg1)) :=
  (show StableHlo.after hostOps2_1 (W6 m ρ c) (Proc.devRef .tc main_v3) = W6 m ρ c (Proc.devRef .tc main_v3) by not_written).trans
    ((show StableHlo.after hostOps2 (W5 m ρ c) (Proc.devRef .tc main_v3) = W5 m ρ c (Proc.devRef .tc main_v3) by not_written).trans (Carry.v3_at5 m ρ c))

set_option maxHeartbeats 8000000 in
/-- The hidden features after the second layer, gathered at the source endpoints. -/
theorem feat_i : W8 m ρ c (Proc.devRef .tc main_v71) = val_main_v96 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  show StableHlo.after hostOps2_2 (W7 m ρ c) (Proc.devRef .tc main_v71) = _
  generalize hW : W7 m ρ c = W
  dsimp only [hostOps2_2]
  after_results_simp
  subst hW
  rw [layer2, src_at7]
  rfl

set_option maxHeartbeats 8000000 in
/-- The same gathered at the target endpoints. -/
theorem feat_j : W8 m ρ c (Proc.devRef .tc main_v78) = val_main_v103 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  show StableHlo.after hostOps2_2 (W7 m ρ c) (Proc.devRef .tc main_v78) = _
  generalize hW : W7 m ρ c = W
  dsimp only [hostOps2_2]
  after_results_simp
  subst hW
  rw [layer2, dst_at7]
  rfl

/-- The upper half of the head's weight matrix. -/
theorem w_upper : W8 m ρ c (Proc.devRef .tc main_v79) = extractStridedSlice S64x8 ![0, 0] (m ((c : Thread nD τ).loc main_arg6)) slices_S128x8_S64x8_0_0 := by
  dsimp only [W8, W7, W6, hostOps2_2, hostOps2_1, hostOps2]
  after_results_simp
  rw [Carry.arg6_at5]

/-- The lower half. -/
theorem w_lower : W8 m ρ c (Proc.devRef .tc main_v80) = extractStridedSlice S64x8 ![64, 0] (m ((c : Thread nD τ).loc main_arg6)) slices_S128x8_S64x8_64_0 := by
  dsimp only [W8, W7, W6, hostOps2_2, hostOps2_1, hostOps2]
  after_results_simp
  rw [Carry.arg6_at5]

/-- The head's bias as one row. -/
theorem bias_row : W8 m ρ c (Proc.devRef .tc main_v81) = shapeCast S1x8 (m ((c : Thread nD τ).loc main_arg7)) shapeCasts_S8_S1x8 := by
  dsimp only [W8, W7, W6, hostOps2_2, hostOps2_1, hostOps2]
  after_results_simp
  rw [Carry.arg7_at5]
  rfl

/-- THE RESULT: the kernel's result array at the last boundary is the reference's last stage of the arguments. -/
theorem result : W9 m ρ c (Proc.devRef .tc main_v82) = val_main_v108 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine ((W9_arr m ρ c 5).trans (Cert.KernelIdeal.Head.final (V8 m ρ) c)).trans ?_
  show Cert.Spec.edgeHead (E := 1600000) (K := 64) (N := 8) (W8 m ρ c (Proc.devRef .tc main_v71)) (W8 m ρ c (Proc.devRef .tc main_v78))
    (W8 m ρ c (Proc.devRef .tc main_v79)) (W8 m ρ c (Proc.devRef .tc main_v80)) (W8 m ρ c (Proc.devRef .tc main_v81)) = _
  rw [feat_i, feat_j, w_upper, w_lower, bias_row]
  exact (Cert.HeadAlgebra.head_eq _ _ _ _).symm

end Cert.Bridge.Stages

end
-- ==== Proof.lean ====
/- A two-layer graph convolution with an edge head, against its plain jnp reference, over the extended reals.

   Both programs compute, from node features `x`, an edge list and the layers' weights: the symmetric weights
   `dinv[r] · dinv[c]` of every edge and self loop (`dinv` the inverse square root of the in-degree);
   `h₁ = max(segment_sum(weight · (x W₁)[r], c) + b₁, 0)`; `h₂` the same from `h₁ W₂` and `b₂`; and per edge
   `h₂[row] · Wl[:64] + h₂[col] · Wl[64:] + bl`. The kernel program does the three dense products in tiled regions
   (row blocks of 10000, 10000 and 16000 rows, products into a zero accumulator after a change of float format
   that is the identity on the extended reals) and everything else by the same host operations as the reference;
   the reference does the three products by the host's product, the last one over the two gathered arrays joined
   side by side.

   So the two results are equal once (1) each tiled region's output array is the matrix product of its input
   arrays (the row blocks tile the output; a product into zero and the host's product are the same sum over the
   contracted axis), and (2) the last product, a sum over 128 positions of the joined array, is split at 64 into
   the two products the kernel adds, which only uses that addition on the extended reals is associative and
   commutative: no finiteness of the inputs is needed, and the precondition is never opened. Between the regions
   the host operations are the same on both sides and are compared term by term, never evaluated.

   The frames of the two kernel programs are the generated ones; the reference's is its generated run with the
   result dropped; no operation was rewritten by the idealization, so there is nothing to preserve. -/
import proofs.«178281_j32615981646453_1_alg».proof.Defs
import proofs.«178281_j32615981646453_1_alg».proof.Proof.Gen.Kernel
import proofs.«178281_j32615981646453_1_alg».proof.Proof.Gen.Kernel.Skeleton
import proofs.«178281_j32615981646453_1_alg».proof.Proof.Gen.Kernel.Launch
import proofs.«178281_j32615981646453_1_alg».proof.Proof.Gen.Kernel.Points
import proofs.«178281_j32615981646453_1_alg».proof.Proof.Gen.Kernel.Frame
import proofs.«178281_j32615981646453_1_alg».proof.Proof.Gen.KernelIdeal
import proofs.«178281_j32615981646453_1_alg».proof.Proof.Gen.KernelIdeal.Skeleton
import proofs.«178281_j32615981646453_1_alg».proof.Proof.Gen.KernelIdeal.Launch
import proofs.«178281_j32615981646453_1_alg».proof.Proof.Gen.KernelIdeal.Points
import proofs.«178281_j32615981646453_1_alg».proof.Proof.Gen.KernelIdeal.Frame
import proofs.«178281_j32615981646453_1_alg».proof.Proof.Gen.ReferenceIdeal
import proofs.«178281_j32615981646453_1_alg».proof.Proof.Gen.Pre_finite_inputs
import proofs.«178281_j32615981646453_1_alg».proof.Proof.Gen.ReferenceIdeal.Run
import proofs.«178281_j32615981646453_1_alg».proof.Proof.Gen.ReferenceIdeal.Read
import proofs.«178281_j32615981646453_1_alg».proof.Proof.KernelRun
import proofs.«178281_j32615981646453_1_alg».proof.Proof.Stages
import Idealize.ShloMosaic.Adequacy
import Idealize.ShloMosaic.Init

noncomputable section

namespace Cert.Proof

open Idealize.ShloMosaic Idealize.ShloMosaic.TcCoe Idealize.SL.Sem

/-- The kernel program as printed terminates without a fault and leaves its arguments alone. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference is a straight line of host operations: its run, with the statement about the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs end with the same result array: the kernel's is what
    the last region leaves in its output array, the reference's its last stage of the arguments, and the two are
    one array. -/
theorem algebraic : Cert.algebraic_KernelIdeal_ReferenceIdeal := by
  intro m ρ m' ρ' _ hagree
  refine ⟨fun c => Cert.KernelIdeal.Gen.W9 m ρ c (Proc.devRef .tc Cert.KernelIdeal.main_v82),
    Cert.KernelIdeal.Named.run_named (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v108_eq, (hagree c).1, (hagree c).2.1, (hagree c).2.2.1, (hagree c).2.2.2.1,
    (hagree c).2.2.2.2.1, (hagree c).2.2.2.2.2.1, (hagree c).2.2.2.2.2.2.1, (hagree c).2.2.2.2.2.2.2]
  exact (Cert.Bridge.Stages.result m ρ c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
